-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg14 : FVec F S256x128 .f32) (main_arg15 : FVec F S128 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128 .f32) (main_arg12 : FVec F S128x256 .f32) (main_arg13 : FVec F S256 .f32) (main_arg14 : FVec F S256x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S128x128 .f32) (main_arg8 : FVec F S128 .f32) (main_arg9 : FVec F S128 .f32) (main_arg10 : FVec F S128 .f32) (main_arg11 : FVec F S128 .f32) (main_arg12 : FVec F S128x256 .f32) (main_arg13 : FVec F S256 .f32) (main_arg14 : FVec F S256x128 .f32) (main_arg15 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x128 .f32) (main_arg7 : FVec F S128x128 .f32) (main_arg8 : FVec F S128 .f32) (main_arg9 : FVec F S128 .f32) (main_arg10 : FVec F S128 .f32) (main_arg11 : FVec F S128 .f32) (main_arg12 : FVec F S128x256 .f32) (main_arg13 : FVec F S256 .f32) (main_arg14 : FVec F S256x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x128 .f32) (main_arg7 : FVec F S128x128 .f32) (main_arg8 : FVec F S128 .f32) (main_arg9 : FVec F S128 .f32) (main_arg10 : FVec F S128 .f32) (main_arg11 : FVec F S128 .f32) (main_arg12 : FVec F S128x256 .f32) (main_arg13 : FVec F S256 .f32) (main_arg14 : FVec F S256x128 .f32) (main_arg15 : FVec F S128 .f32) (main_arg16 : IVec S600000 32) (main_arg17 : IVec S600000 32) (main_arg18 : IVec S600000 32) (main_arg19 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S600000 : Shape := ⟨1, ![600000]⟩
abbrev S5000x128 : Shape := ⟨2, ![5000, 128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S1x256 : Shape := ⟨2, ![1, 256]⟩
abbrev S5000 : Shape := ⟨1, ![5000]⟩
abbrev S5000x1 : Shape := ⟨2, ![5000, 1]⟩
abbrev S5000x256 : Shape := ⟨2, ![5000, 256]⟩

abbrev nBuf : Space → Nat
  | .hbm => 60
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S50000x128, .f32⟩
  | .hbm, ⟨33, _⟩ => ⟨S600000x1, .i32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x256, .f32⟩
  | .hbm, ⟨52, _⟩ => ⟨S1x128, .f32⟩
  | .hbm, ⟨53, _⟩ => ⟨S50000x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x256, .f32⟩
  | .hbm, ⟨58, _⟩ => ⟨S1x128, .f32⟩
  | .hbm, ⟨59, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x256, .f32⟩
  | .local _ .vmem, ⟨19, _⟩ => ⟨S1x256, .f32⟩
  | .local _ .vmem, ⟨20, _⟩ => ⟨S256x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x256, .f32⟩
  | .local _ .vmem, ⟨33, _⟩ => ⟨S1x256, .f32⟩
  | .local _ .vmem, ⟨34, _⟩ => ⟨S256x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg10_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg10_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem10_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem10_0 : DmaSem sig := 36
abbrev cc3_sem10_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  shapeCasts_S256_S1x256 : S256.ShapeCasts S1x256
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x256.size a ≤ S128x256.size a
  hwx2_6 : ∀ i : grid2.Coords, EltTy.bits .f32 = 32 ∨ (Rect.block (s := S128x256) S128x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .f32 = 32 ∨ (Rect.block (s := S256x128) S256x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S50000x128.size a
  hwx2_10 : ∀ i : grid2.Coords, EltTy.bits .f32 = 32 ∨ (Rect.block (s := S50000x128) S5000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x256.size a ≤ S128x256.size a
  hwx3_6 : ∀ i : grid3.Coords, EltTy.bits .f32 = 32 ∨ (Rect.block (s := S128x256) S128x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x128.size a ≤ S256x128.size a
  hwx3_8 : ∀ i : grid3.Coords, EltTy.bits .f32 = 32 ∨ (Rect.block (s := S256x128) S256x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S50000x128.size a
  hwx3_10 : ∀ i : grid3.Coords, EltTy.bits .f32 = 32 ∨ (Rect.block (s := S50000x128) S5000x128.size (cc3_transform_10 i) (hinb3_10 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S128x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v25) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg14) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v26) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v27) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_arg1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v30) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg12) S128x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v31) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg14) S256x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v32) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v33) S5000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128, .f32⟩
  | 10 => ⟨S128, .f32⟩
  | 11 => ⟨S128, .f32⟩
  | 12 => ⟨S128x256, .f32⟩
  | 13 => ⟨S256, .f32⟩
  | 14 => ⟨S256x128, .f32⟩
  | 15 => ⟨S128, .f32⟩
  | 16 => ⟨S600000, .i32⟩
  | 17 => ⟨S600000, .i32⟩
  | 18 => ⟨S600000, .i32⟩
  | 19 => ⟨S600000, .i32⟩
  | 20 => ⟨S50000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S1x128, .f32⟩
  | 52 => ⟨S50000x128, .f32⟩
  | 53 => ⟨S50000x128, .f32⟩
  | 54 => ⟨S50000x128, .f32⟩
  | 55 => ⟨S50000x128, .f32⟩
  | 56 => ⟨S50000x128, .f32⟩
  | 57 => ⟨S50000x128, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x128, .f32⟩
  | 65 => ⟨S50000x128, .f32⟩
  | 66 => ⟨S50000x128, .f32⟩
  | 67 => ⟨S_, .f32⟩
  | 68 => ⟨S50000, .f32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S_, .f32⟩
  | 76 => ⟨S50000x1, .f32⟩
  | 77 => ⟨S50000x1, .f32⟩
  | 78 => ⟨S50000x1, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S50000x1, .f32⟩
  | 110 => ⟨S50000x1, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x128, .f32⟩
  | 124 => ⟨S50000x256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S_, .f32⟩
  | 1 => ⟨S50000x256, .f32⟩
  | 2 => ⟨S50000x256, .f32⟩
  | 3 => ⟨S50000x128, .f32⟩
  | 4 => ⟨S1x128, .f32⟩
  | 5 => ⟨S50000x128, .f32⟩
  | 6 => ⟨S50000x128, .f32⟩
  | 7 => ⟨S50000x256, .f32⟩
  | 8 => ⟨S1x256, .f32⟩
  | 9 => ⟨S50000x256, .f32⟩
  | 10 => ⟨S50000x256, .f32⟩
  | 11 => ⟨S_, .f32⟩
  | 12 => ⟨S50000x256, .f32⟩
  | 13 => ⟨S50000x256, .f32⟩
  | 14 => ⟨S50000x128, .f32⟩
  | 15 => ⟨S1x128, .f32⟩
  | 16 => ⟨S50000x128, .f32⟩
  | 17 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call0_cst : Ref sig .tc := ⟨.hbm, 87, rfl⟩
abbrev main_call0_v0 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_cst_10 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_11 : Ref sig .tc := ⟨.hbm, 100, rfl⟩
abbrev main_v65 : Ref sig .tc := ⟨.hbm, 101, rfl⟩
abbrev main_v66 : Ref sig .tc := ⟨.hbm, 102, rfl⟩
abbrev main_cst_12 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_13 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call1_cst : Ref sig .tc := ⟨.hbm, 120, rfl⟩
abbrev main_call1_v0 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call2_cst : Ref sig .tc := ⟨.hbm, 128, rfl⟩
abbrev main_call2_v0 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_call3_cst : Ref sig .tc := ⟨.hbm, 139, rfl⟩
abbrev main_call3_v0 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The layer as mathematics on the extended reals, one output row at a time.

  A node's output row is a function of two rows — `h`, the row before normalisation (the node's features through the
  self-loop weight, plus the messages summed over its incoming edges, plus the relation's bias), and `f`, the node's own
  feature row, which re-enters as the residual — and of the small parameter arrays:
    mean  = (Σ_l h_l) / 128,      var = (Σ_l (h_l − mean)²) / 128,
    r_l   = max (((h_l − mean) · rsqrt (var + ε)) · g_l + b_l) 0 + f_l,
    hid_k = max (Σ_l r_l · w1_{l,k} + b1_k) 0,
    out_j = Σ_k hid_k · w2_{k,j} + b2_j.
  The three float literals (128, ε, 0) are the same words in both programs, so they are kept as words and never evaluated.
  Both programs are read to these functions: the tiled one block by block, the plain one as a whole; a row depends on no
  other row, which is why the tiling does not matter.
-/
import Idealize.ShloMosaic.PureOps.Ideal
import Idealize.ShloMosaic.Lib.ValueIdx

noncomputable section

namespace Cert.Spec

open Idealize.ShloMosaic Idealize.ShloMosaic.ValueIdx
open scoped BigOperators

/-- A matrix of extended reals with `a` rows and `b` columns, indexed as the printed arrays are. -/
abbrev Mat (a b : ℕ) : Type := (⟨2, ![a, b]⟩ : Shape).Idx → EReal

/-- The divisor of both means: the word of `128.0`. -/
abbrev c128 : EReal := Ideal.ofBits .f32 0x43000000#32
/-- The variance's offset: the word both programs print for `1e-5`. -/
abbrev ceps : EReal := Ideal.ofBits .f32 0x3727C5AC#32
/-- The floor of both rectifiers: the zero word. -/
abbrev czero : EReal := Ideal.ofBits .f32 0x00000000#32

/-- A row's mean. -/
def rowMean (h : Fin 128 → EReal) : EReal := Ideal.div (∑ l : Fin 128, h l) c128

/-- A row's variance about its mean. -/
def rowVar (h : Fin 128 → EReal) : EReal :=
  Ideal.div (∑ l : Fin 128, (h l - rowMean h) * (h l - rowMean h)) c128

/-- The normalised row, scaled and shifted, rectified, plus the residual row `f`. -/
def rowRes (h f g b : Fin 128 → EReal) (l : Fin 128) : EReal :=
  max ((h l - rowMean h) * Ideal.rsqrt (rowVar h + ceps) * g l + b l) czero + f l

/-- The hidden layer of the feed-forward net on a row `r`. -/
def rowHid (r : Fin 128 → EReal) (w1 : Fin 128 → Fin 256 → EReal) (b1 : Fin 256 → EReal) (k : Fin 256) : EReal :=
  max (∑ l : Fin 128, r l * w1 l k + b1 k) czero

/-- The output layer of the feed-forward net on a hidden row. -/
def rowOut (hid : Fin 256 → EReal) (w2 : Fin 256 → Fin 128 → EReal) (b2 : Fin 128 → EReal) (j : Fin 128) : EReal :=
  ∑ k : Fin 256, hid k * w2 k j + b2 j

/-- A node's output row from its pre-normalisation row `h` and its feature row `f`. -/
def rowTail (h f g b : Fin 128 → EReal) (w1 : Fin 128 → Fin 256 → EReal) (b1 : Fin 256 → EReal)
    (w2 : Fin 256 → Fin 128 → EReal) (b2 : Fin 128 → EReal) (j : Fin 128) : EReal :=
  rowOut (rowHid (rowRes h f g b) w1 b1) w2 b2 j

/-- The product of the node features with a square weight, entry by entry. -/
def matG (x : Mat 50000 128) (w : Mat 128 128) : Mat 50000 128 :=
  fun i => ∑ q : Fin 128, x (ix2 (i 0) q) * w (ix2 q (i 1))

/-- Node `i`'s row before normalisation: features through the self-loop weight, plus the summed messages, plus the bias,
    associated as `(a + m) + b`. -/
def preRow (f : Mat 50000 128) (sw : Mat 128 128) (msg : Mat 50000 128) (bias : Fin 128 → EReal)
    (i : Fin 50000) (l : Fin 128) : EReal :=
  (∑ q : Fin 128, f (ix2 i q) * sw (ix2 q l) + msg (ix2 i l)) + bias l

/-- One node type's whole output: every node's row through `rowTail`. -/
def fusedG (f : Mat 50000 128) (sw : Mat 128 128) (msg : Mat 50000 128) (bias g b : Fin 128 → EReal)
    (w1 : Mat 128 256) (b1 : Fin 256 → EReal) (w2 : Mat 256 128) (b2 : Fin 128 → EReal) : Mat 50000 128 :=
  fun i => rowTail (preRow f sw msg bias (i 0)) (fun l => f (ix2 (i 0) l)) g b (fun l k => w1 (ix2 l k)) b1
    (fun k j => w2 (ix2 k j)) b2 (i 1)

/-- The same row with the bias joined to the messages first, `a + (m + b)`: addition of extended reals is associative
    (no finiteness is needed: `⊥` absorbs on either side), so the two groupings agree. -/
theorem preRow_assoc (f : Mat 50000 128) (sw : Mat 128 128) (msg : Mat 50000 128) (bias : Fin 128 → EReal)
    (i : Fin 50000) (l : Fin 128) :
    (∑ q : Fin 128, f (ix2 i q) * sw (ix2 q l)) + (msg (ix2 i l) + bias l) = preRow f sw msg bias i l := by
  unfold preRow
  rw [add_assoc]

end Cert.Spec

end
-- ==== Proof.PayFF.lean ====
/-
  The second part of the fused body, read at one entry of its block: two matrix products with a bias row each and a
  rectifier between — `Spec.rowOut` of `Spec.rowHid` of the block's row —, and the plain matmul body of the transform
  kernel, a sum over the contraction index.
-/
import proofs.«116802_j78829829751101_1_alg».proof.Proof.Gen.KernelIdeal.Skeleton
import proofs.«116802_j78829829751101_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayFF

open Idealize.ShloMosaic Idealize.ShloMosaic.ValueIdx Cert.KernelIdeal Cert.KernelIdeal.Gen Cert.Spec
open scoped BigOperators

/-! ## The transform kernel's product: `[5000, 128] × [128, 128]`, contracting the left operand's axis 1 with the right one's axis 0 -/

/-- Axis 0 of the left index is free: it is the output's row. -/
theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- Axis 1 of the left index is the contracted one: it is the contraction position's one coordinate. -/
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right index is the contracted one. -/
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right index is free: it is the output's column. -/
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Into the zero splat the product's entry `(p, k)` is the plain sum of row `p` against column `k`: the zero word is
    the additive unit, and the contraction shape's one axis is re-indexed by `Fin 128`. -/
theorem matmulA_apply (x : FVec Ideal S5000x128 .f32) (w : FVec Ideal S128x128 .f32) (p : Fin 5000) (k : Fin 128) :
    matmul (F := Ideal) dot_S5000x128_S128x128_S5000x128_1_0_0_1_n_n none x w (constant (F := Ideal) S5000x128 .f32 0x00000000#32) (ix2 p k)
      = ∑ l : Fin 128, x (ix2 p l) * w (ix2 l k) := by
  show FloatOps.matmul dot_S5000x128_S128x128_S5000x128_1_0_0_1_n_n none x w (constant (F := Ideal) S5000x128 .f32 0x00000000#32) (ix2 p k) = _
  rw [Ideal.matmul_constant_zero_apply,
    ← Equiv.sum_comp (contrEquiv1 dot_S5000x128_S128x128_S5000x128_1_0_0_1_n_n 128 rfl rfl).symm]
  refine Finset.sum_congr rfl fun l _ => ?_
  have hl := contrEquiv1_symm_val dot_S5000x128_S128x128_S5000x128_1_0_0_1_n_n 128 rfl rfl l
  have el : dot_S5000x128_S128x128_S5000x128_1_0_0_1_n_n.lhsIdx (ix2 p k) ((contrEquiv1 dot_S5000x128_S128x128_S5000x128_1_0_0_1_n_n 128 rfl rfl).symm l) = ix2 p l :=
    funext fun a => Fin.ext (by
      match a with
      | ⟨0, _⟩ => exact lhsA_0 _ _
      | ⟨1, _⟩ => exact (lhsA_1 _ _).trans hl)
  have er : dot_S5000x128_S128x128_S5000x128_1_0_0_1_n_n.rhsIdx (ix2 p k) ((contrEquiv1 dot_S5000x128_S128x128_S5000x128_1_0_0_1_n_n 128 rfl rfl).symm l) = ix2 l k :=
    funext fun a => Fin.ext (by
      match a with
      | ⟨0, _⟩ => exact (rhsA_0 _ _).trans hl
      | ⟨1, _⟩ => exact rhsA_1 _ _)
  rw [el, er]

/-! ## The hidden layer's product: `[5000, 128] × [128, 256]`, contracting the left operand's axis 1 with the right one's axis 0 -/

/-- Axis 0 of the left index is free: it is the output's row. -/
theorem lhsB_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl
/-- Axis 1 of the left index is the contracted one: it is the contraction position's one coordinate. -/
theorem lhsB_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- Axis 0 of the right index is the contracted one. -/
theorem rhsB_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
/-- Axis 1 of the right index is free: it is the output's column. -/
theorem rhsB_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- Into the zero splat the product's entry `(p, k)` is the plain sum of row `p` against column `k`: the zero word is
    the additive unit, and the contraction shape's one axis is re-indexed by `Fin 128`. -/
theorem matmulB_apply (x : FVec Ideal S5000x128 .f32) (w : FVec Ideal S128x256 .f32) (p : Fin 5000) (k : Fin 256) :
    matmul (F := Ideal) dot_S5000x128_S128x256_S5000x256_1_0_0_1_n_n none x w (constant (F := Ideal) S5000x256 .f32 0x00000000#32) (ix2 p k)
      = ∑ l : Fin 128, x (ix2 p l) * w (ix2 l k) := by
  show FloatOps.matmul dot_S5000x128_S128x256_S5000x256_1_0_0_1_n_n none x w (constant (F := Ideal) S5000x256 .f32 0x00000000#32) (ix2 p k) = _
  rw [Ideal.matmul_constant_zero_apply,
    ← Equiv.sum_comp (contrEquiv1 dot_S5000x128_S128x256_S5000x256_1_0_0_1_n_n 128 rfl rfl).symm]
  refine Finset.sum_congr rfl fun l _ => ?_
  have hl := contrEquiv1_symm_val dot_S5000x128_S128x256_S5000x256_1_0_0_1_n_n 128 rfl rfl l
  have el : dot_S5000x128_S128x256_S5000x256_1_0_0_1_n_n.lhsIdx (ix2 p k) ((contrEquiv1 dot_S5000x128_S128x256_S5000x256_1_0_0_1_n_n 128 rfl rfl).symm l) = ix2 p l :=
    funext fun a => Fin.ext (by
      match a with
      | ⟨0, _⟩ => exact lhsB_0 _ _
      | ⟨1, _⟩ => exact (lhsB_1 _ _).trans hl)
  have er : dot_S5000x128_S128x256_S5000x256_1_0_0_1_n_n.rhsIdx (ix2 p k) ((contrEquiv1 dot_S5000x128_S128x256_S5000x256_1_0_0_1_n_n 128 rfl rfl).symm l) = ix2 l k :=
    funext fun a => Fin.ext (by
      match a with
      | ⟨0, _⟩ => exact (rhsB_0 _ _).trans hl
      | ⟨1, _⟩ => exact rhsB_1 _ _)
  rw [el, er]

/-! ## The output layer's product: `[5000, 256] × [256, 128]`, contracting the left operand's axis 1 with the right one's axis 0 -/

/-- Axis 0 of the left index is free: it is the output's row. -/
theorem lhsC_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
/-- Axis 1 of the left index is the contracted one: it is the contraction position's one coordinate. -/
theorem lhsC_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- Axis 0 of the right index is the contracted one. -/
theorem rhsC_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- Axis 1 of the right index is free: it is the output's column. -/
theorem rhsC_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- Into the zero splat the product's entry `(p, k)` is the plain sum of row `p` against column `k`: the zero word is
    the additive unit, and the contraction shape's one axis is re-indexed by `Fin 256`. -/
theorem matmulC_apply (x : FVec Ideal S5000x256 .f32) (w : FVec Ideal S256x128 .f32) (p : Fin 5000) (k : Fin 128) :
    matmul (F := Ideal) dot_S5000x256_S256x128_S5000x128_1_0_0_1_n_n none x w (constant (F := Ideal) S5000x128 .f32 0x00000000#32) (ix2 p k)
      = ∑ l : Fin 256, x (ix2 p l) * w (ix2 l k) := by
  show FloatOps.matmul dot_S5000x256_S256x128_S5000x128_1_0_0_1_n_n none x w (constant (F := Ideal) S5000x128 .f32 0x00000000#32) (ix2 p k) = _
  rw [Ideal.matmul_constant_zero_apply,
    ← Equiv.sum_comp (contrEquiv1 dot_S5000x256_S256x128_S5000x128_1_0_0_1_n_n 256 rfl rfl).symm]
  refine Finset.sum_congr rfl fun l _ => ?_
  have hl := contrEquiv1_symm_val dot_S5000x256_S256x128_S5000x128_1_0_0_1_n_n 256 rfl rfl l
  have el : dot_S5000x256_S256x128_S5000x128_1_0_0_1_n_n.lhsIdx (ix2 p k) ((contrEquiv1 dot_S5000x256_S256x128_S5000x128_1_0_0_1_n_n 256 rfl rfl).symm l) = ix2 p l :=
    funext fun a => Fin.ext (by
      match a with
      | ⟨0, _⟩ => exact lhsC_0 _ _
      | ⟨1, _⟩ => exact (lhsC_1 _ _).trans hl)
  have er : dot_S5000x256_S256x128_S5000x128_1_0_0_1_n_n.rhsIdx (ix2 p k) ((contrEquiv1 dot_S5000x256_S256x128_S5000x128_1_0_0_1_n_n 256 rfl rfl).symm l) = ix2 l k :=
    funext fun a => Fin.ext (by
      match a with
      | ⟨0, _⟩ => exact (rhsC_0 _ _).trans hl
      | ⟨1, _⟩ => exact rhsC_1 _ _)
  rw [el, er]

/-! ## The two payloads at an entry -/

/-- Entry `(p, j)` of the transform kernel's block: row `p` of the feature block against column `j` of the weight. -/
theorem mm_apply (v0 : Vec Ideal S5000x128 .f32) (v1 : Vec Ideal S128x128 .f32) (p : Fin 5000) (j : Fin 128) :
    k0_pay1 (F := Ideal) v0 v1 (ix2 p j) = ∑ q : Fin 128, v0 (ix2 p q) * v1 (ix2 q j) :=
  matmulA_apply v0 v1 p j

/-- Entry `(p, j)` of the feed-forward block over a row block `r`. -/
theorem pay1_apply (r : FVec Ideal S5000x128 .f32) (v39 : Vec Ideal S128x256 .f32) (v41 : Vec Ideal S1x256 .f32)
    (v47 : Vec Ideal S256x128 .f32) (v49 : Vec Ideal S1x128 .f32) (p : Fin 5000) (j : Fin 128) :
    k2_pay1 (F := Ideal) r v39 v41 v47 v49 (ix2 p j)
      = rowOut (rowHid (fun l => r (ix2 p l)) (fun l k => v39 (ix2 l k)) (fun k => v41 (ix2 (0 : Fin 1) k)))
          (fun k j' => v47 (ix2 k j')) (fun j' => v49 (ix2 (0 : Fin 1) j')) j := by
  unfold k2_pay1
  -- the outer sum: the output layer's product plus the second bias row, which every row of the block shares
  rw [addf_apply, matmulC_apply, shapeCast_self, shapeCast_self, broadcastTo_1b_ab_apply]
  unfold rowOut rowHid
  refine congrArg (· + v49 (ix2 (0 : Fin 1) j)) (Finset.sum_congr rfl fun k _ => ?_)
  -- one hidden entry: the hidden layer's product plus the first bias row, floored at the zero word
  rw [maximumf_apply, addf_apply, matmulB_apply, broadcastTo_1b_ab_apply, broadcast_apply]
  rfl

end Cert.KernelIdeal.PayFF

end
-- ==== Proof.Region0.lean ====
/-
  Region 0, the first transform kernel, from blocks to the whole array. Grid point `t` multiplies rows
  `5000·t … 5000·t + 4999` of the feature array by the whole weight and writes them back to the same rows of the result;
  the ten row blocks tile the array, so the array ends as the whole product `Spec.matG`.
-/
import proofs.«116802_j78829829751101_1_alg».proof.Proof.Gen.KernelIdeal.Frame
import proofs.«116802_j78829829751101_1_alg».proof.Proof.Spec
import proofs.«116802_j78829829751101_1_alg».proof.Proof.PayFF
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region0

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Spec
open scoped BigOperators

variable (V : (c : Dev nD) → (b : Ref sig .tc) → Buf (Elt Ideal) ((c : Thread nD τ).loc b))

/-- The two zero offsets of a whole-buffer rectangle, as the constant function. -/
theorem zero_off : (![0, 0] : Fin 2 → Nat) = fun _ => 0 := funext fun a => by fin_cases a <;> rfl

/-- The index maps over the ten grid points: the feature window and the result window sit at block row `t`, column
    block 0; the weight window sits at block (0, 0) throughout. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, q)` of the feature block at point `t` is entry `(5000·t + p, q)` of the feature array. -/
theorem feat_block (c : Dev nD) (t : Fin cfg0.N) (p : Fin 5000) (q : Fin 128) (i : S50000x128.Idx)
    (h0 : (i 0).val = 5000 * t.val + p.val) (h1 : (i 1).val = q.val) :
    (iblk0 V c 0 t : Vec Ideal S5000x128 .f32) (ix2 p q) = (V c main_arg0 : S50000x128.Idx → EReal) i := by
  obtain ⟨e0, e1, -, -, -, -⟩ := block_index t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; omega
  | ⟨1, _⟩ => show win0_0.index t (1 : Fin 2) * 128 + 1 * q.val = (i 1).val; omega

/-- The weight window's block is the whole weight at every point: entry `(q, j)` of the block is entry `(q, j)` of the
    array. -/
theorem weight_block (c : Dev nD) (t : Fin cfg0.N) (q j : Fin 128) :
    (iblk0 V c 1 t : Vec Ideal S128x128 .f32) (ix2 q j) = (V c main_arg2 : S128x128.Idx → EReal) (ix2 q j) := by
  obtain ⟨-, -, e2, e3, -, -⟩ := block_index t
  unfold iblk0
  rw [View.read_apply]
  show V c main_arg2 _ = V c main_arg2 _
  congr 1
  funext a
  apply Fin.ext
  match a with
  | ⟨0, _⟩ => show win0_1.index t (0 : Fin 2) * 128 + 1 * q.val = q.val; omega
  | ⟨1, _⟩ => show win0_1.index t (1 : Fin 2) * 128 + 1 * j.val = j.val; omega

/-- Entry `(p, j)` of the result block at point `t` sits at `(5000·t + p, j)` of the result array. -/
theorem out_emb (t : Fin cfg0.N) (p : Fin 5000) (j : Fin 128) :
    ((((cfg0.win 2).blk t).view.emb (ix2 p j) : S50000x128.Idx) 0).val = 5000 * t.val + p.val
    ∧ ((((cfg0.win 2).blk t).view.emb (ix2 p j) : S50000x128.Idx) 1).val = j.val := by
  obtain ⟨-, -, -, -, e4, e5⟩ := block_index t
  constructor
  · show win0_2.index t (0 : Fin 2) * 5000 + 1 * p.val = _; omega
  · show win0_2.index t (1 : Fin 2) * 128 + 1 * j.val = _; omega

/-- What point `t` writes back is block `t` of the whole product: row `p` of the block is row `5000·t + p` of the
    feature array against the weight. -/
theorem flushed_eq (c : Dev nD) (t : Fin cfg0.N) :
    (dat0 (F := Ideal) V c).flushed 2 t
      = ((cfg0.win 2).blk t).view.read (Elt Ideal) (matG (V c main_arg0) (V c main_arg2)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  funext y
  obtain ⟨p, j, rfl⟩ : ∃ (p : Fin 5000) (j : Fin 128), y = ix2 p j := ⟨y 0, y 1, eq_ix2 y⟩
  obtain ⟨o0, o1⟩ := out_emb t p j
  show k0_pay1 (F := Ideal) (iblk0 V c 0 t) (iblk0 V c 1 t) (ix2 p j)
    = matG (V c main_arg0) (V c main_arg2) (((cfg0.win 2).blk t).view.emb (ix2 p j))
  rw [PayFF.mm_apply]
  unfold matG
  refine Finset.sum_congr rfl fun q _ => ?_
  have hj : (((cfg0.win 2).blk t).view.emb (ix2 p j) : S50000x128.Idx) 1 = j := Fin.ext o1
  rw [weight_block V c t q, feat_block V c t p q (ix2 ((((cfg0.win 2).blk t).view.emb (ix2 p j) : S50000x128.Idx) 0) q) o0 rfl, hj]

/-- An index of the result array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- The ten row blocks tile the result array: row `r` is in the block of point `r / 5000`, and every point writes back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e4, e5⟩ := block_index t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- What region 0 leaves in its result array, whatever the buffers hold when it is entered: the product of the
    feature array and the weight as it finds them. -/
theorem arr (c : Dev nD) :
    (dat0 (F := Ideal) V c).arrAt 2 cfg0.N = matG (V c main_arg0) (V c main_arg2) :=
  (dat0 (F := Ideal) V c).arrAt_eq_of_cover 2 _ (fun t _ => flushed_eq V c t) cover

end Cert.KernelIdeal.Region0

end
-- ==== Proof.Region1.lean ====
/-
  Region 1, the second transform kernel, from blocks to the whole array. Grid point `t` multiplies rows
  `5000·t … 5000·t + 4999` of the feature array by the whole weight and writes them back to the same rows of the result;
  the ten row blocks tile the array, so the array ends as the whole product `Spec.matG`.
-/
import proofs.«116802_j78829829751101_1_alg».proof.Proof.Gen.KernelIdeal.Frame
import proofs.«116802_j78829829751101_1_alg».proof.Proof.Spec
import proofs.«116802_j78829829751101_1_alg».proof.Proof.PayFF
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region1

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Spec
open scoped BigOperators

variable (V : (c : Dev nD) → (b : Ref sig .tc) → Buf (Elt Ideal) ((c : Thread nD τ).loc b))

/-- The two zero offsets of a whole-buffer rectangle, as the constant function. -/
theorem zero_off : (![0, 0] : Fin 2 → Nat) = fun _ => 0 := funext fun a => by fin_cases a <;> rfl

/-- The index maps over the ten grid points: the feature window and the result window sit at block row `t`, column
    block 0; the weight window sits at block (0, 0) throughout. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `(p, q)` of the feature block at point `t` is entry `(5000·t + p, q)` of the feature array. -/
theorem feat_block (c : Dev nD) (t : Fin cfg1.N) (p : Fin 5000) (q : Fin 128) (i : S50000x128.Idx)
    (h0 : (i 0).val = 5000 * t.val + p.val) (h1 : (i 1).val = q.val) :
    (iblk1 V c 0 t : Vec Ideal S5000x128 .f32) (ix2 p q) = (V c main_arg1 : S50000x128.Idx → EReal) i := by
  obtain ⟨e0, e1, -, -, -, -⟩ := block_index t
  unfold iblk1
  rw [View.read_apply]
  show V c main_arg1 _ = V c main_arg1 _
  congr 1
  funext a
  apply Fin.ext
  match a with
  | ⟨0, _⟩ => show win1_0.index t (0 : Fin 2) * 5000 + 1 * p.val = (i 0).val; omega
  | ⟨1, _⟩ => show win1_0.index t (1 : Fin 2) * 128 + 1 * q.val = (i 1).val; omega

/-- The weight window's block is the whole weight at every point: entry `(q, j)` of the block is entry `(q, j)` of the
    array. -/
theorem weight_block (c : Dev nD) (t : Fin cfg1.N) (q j : Fin 128) :
    (iblk1 V c 1 t : Vec Ideal S128x128 .f32) (ix2 q j) = (V c main_arg4 : S128x128.Idx → EReal) (ix2 q j) := by
  obtain ⟨-, -, e2, e3, -, -⟩ := block_index t
  unfold iblk1
  rw [View.read_apply]
  show V c main_arg4 _ = V c main_arg4 _
  congr 1
  funext a
  apply Fin.ext
  match a with
  | ⟨0, _⟩ => show win1_1.index t (0 : Fin 2) * 128 + 1 * q.val = q.val; omega
  | ⟨1, _⟩ => show win1_1.index t (1 : Fin 2) * 128 + 1 * j.val = j.val; omega

/-- Entry `(p, j)` of the result block at point `t` sits at `(5000·t + p, j)` of the result array. -/
theorem out_emb (t : Fin cfg1.N) (p : Fin 5000) (j : Fin 128) :
    ((((cfg1.win 2).blk t).view.emb (ix2 p j) : S50000x128.Idx) 0).val = 5000 * t.val + p.val
    ∧ ((((cfg1.win 2).blk t).view.emb (ix2 p j) : S50000x128.Idx) 1).val = j.val := by
  obtain ⟨-, -, -, -, e4, e5⟩ := block_index t
  constructor
  · show win1_2.index t (0 : Fin 2) * 5000 + 1 * p.val = _; omega
  · show win1_2.index t (1 : Fin 2) * 128 + 1 * j.val = _; omega

/-- What point `t` writes back is block `t` of the whole product: row `p` of the block is row `5000·t + p` of the
    feature array against the weight. -/
theorem flushed_eq (c : Dev nD) (t : Fin cfg1.N) :
    (dat1 (F := Ideal) V c).flushed 2 t
      = ((cfg1.win 2).blk t).view.read (Elt Ideal) (matG (V c main_arg1) (V c main_arg4)) := by
  show (cfg1.win 2).cut (grid1.coords t) ((dat1 V c).after 2 t) = _
  rw [after1_2]
  unfold out1_2
  rw [View.canon_unit_zero zero_off]
  simp only [View.ld_unit_zero (S := S5000x128) zero_off, View.ld_unit_zero (S := S128x128) zero_off]
  funext y
  obtain ⟨p, j, rfl⟩ : ∃ (p : Fin 5000) (j : Fin 128), y = ix2 p j := ⟨y 0, y 1, eq_ix2 y⟩
  obtain ⟨o0, o1⟩ := out_emb t p j
  show k0_pay1 (F := Ideal) (iblk1 V c 0 t) (iblk1 V c 1 t) (ix2 p j)
    = matG (V c main_arg1) (V c main_arg4) (((cfg1.win 2).blk t).view.emb (ix2 p j))
  rw [PayFF.mm_apply]
  unfold matG
  refine Finset.sum_congr rfl fun q _ => ?_
  have hj : (((cfg1.win 2).blk t).view.emb (ix2 p j) : S50000x128.Idx) 1 = j := Fin.ext o1
  rw [weight_block V c t q, feat_block V c t p q (ix2 ((((cfg1.win 2).blk t).view.emb (ix2 p j) : S50000x128.Idx) 0) q) o0 rfl, hj]

/-- An index of the result array is in point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v1).slice (win1_2.rect t)).set ↔ _
  rw [View.set_slice_whole, Rect.mem_set_unit]
  exact Iff.rfl

/-- The ten row blocks tile the result array: row `r` is in the block of point `r / 5000`, and every point writes back. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, e4, e5⟩ := block_index t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- What region 1 leaves in its result array, whatever the buffers hold when it is entered: the product of the
    feature array and the weight as it finds them. -/
theorem arr (c : Dev nD) :
    (dat1 (F := Ideal) V c).arrAt 2 cfg1.N = matG (V c main_arg1) (V c main_arg4) :=
  (dat1 (F := Ideal) V c).arrAt_eq_of_cover 2 _ (fun t _ => flushed_eq V c t) cover

end Cert.KernelIdeal.Region1

end
-- ==== Proof.PayLN.lean ====
/-
  The first part of the fused body, read at one entry of its block: the self-loop product plus the message block plus the
  bias row, normalised over the lane axis, scaled, shifted, rectified, plus the feature block — `Spec.rowRes` of the
  block's row.
-/
import proofs.«116802_j78829829751101_1_alg».proof.Proof.Gen.KernelIdeal.Skeleton
import proofs.«116802_j78829829751101_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLN

open Idealize.ShloMosaic Idealize.ShloMosaic.ValueIdx Cert.KernelIdeal Cert.KernelIdeal.Gen Cert.Spec
open scoped BigOperators

/-! ## The product's operand indices, axis by axis

At output entry `i` and contraction index `q` the left operand is read at `(i 0, q)` and the right one at `(q, i 1)`:
the free axis keeps the output's coordinate, the contracted axis takes the contraction's one coordinate. -/

/-- The left operand's row is the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction's coordinate. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row is the contraction's coordinate. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right operand's column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The non-pointwise operations at explicit coordinates -/

/-- The product into a zero accumulator, at `(p, l)`: row `p` of the left operand against column `l` of the right one.
    The contraction index has one axis of extent 128; the sum is re-indexed through that coordinate. -/
theorem matmul_at (x : FVec Ideal S5000x128 .f32) (w : FVec Ideal S128x128 .f32) (p : Fin 5000) (l : Fin 128) :
    matmul (F := Ideal) dot_S5000x128_S128x128_S5000x128_1_0_0_1_n_n none x w
        (constant (F := Ideal) S5000x128 .f32 0x00000000#32) (ix2 p l)
      = ∑ q : Fin 128, x (ix2 p q) * w (ix2 q l) := by
  refine (Ideal.matmul_constant_zero_apply dot_S5000x128_S128x128_S5000x128_1_0_0_1_n_n none x w (ix2 p l)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p l)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p l)
      ((contrEquiv1 dot_S5000x128_S128x128_S5000x128_1_0_0_1_n_n 128 rfl rfl).symm k) = ix2 k l :=
    funext fun a => Fin.ext (by
      match a with
      | ⟨0, _⟩ => exact (rhs_row _ _).trans hk
      | ⟨1, _⟩ => exact rhs_col _ _)
  rw [el, er]

/-- A sum over the lane axis, at row `p`: the row's 128 entries added up. The index the reduction inserts coordinate
    `k` into is `(p, k)`, axis by axis. -/
theorem rowSum_at (x : FVec Ideal S5000x128 .f32) (h : S5000x128.Reduces [1] S5000) (hφ : FKind.Formats .f32)
    (hacc : (0x00000000#32 : BitVec 32) = 0x00000000#32) (p : Fin 5000) :
    multiReduction (F := Ideal) .add [1] S5000 x 0x00000000#32 h hφ hacc (ix1 p) = ∑ k : Fin 128, x (ix2 p k) := by
  refine (Ideal.multiReduction_add_single x 0x00000000#32 h hφ hacc (ix1 p)).trans ?_
  refine Finset.sum_congr rfl fun k _ => congrArg x (funext fun a => ?_)
  match a with
  | ⟨0, _⟩ => rfl
  | ⟨1, _⟩ => rfl

/-- An `[a]` array cast to the column `[a, 1]` reads, at `(i, u)`, the operand at `i`: both row-major positions are
    `i`, the unit coordinate being `0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, at an index, is the extended reals' one of the entry. -/
theorem rsqrt_at {s : Shape} {φ : FTy} (x : FVec Ideal s φ) (i : s.Idx) : rsqrt x i = Ideal.rsqrt (x i) := rfl

/-- Entry `(p, l)` of the normalised-and-residual block is `rowRes` of row `p`: the row before normalisation is the
    product row plus the message row plus the bias, and the residual is the feature row. -/
theorem pay2_apply (v0 : Vec Ideal S5000x128 .f32) (v1 : Vec Ideal S128x128 .f32) (v3 : Vec Ideal S5000x128 .f32)
    (v6 v28 v32 : Vec Ideal S1x128 .f32) (p : Fin 5000) (l : Fin 128) :
    k2_pay2 (F := Ideal) v0 v1 v3 v6 v28 v32 (ix2 p l)
      = rowRes (fun l' => (∑ q : Fin 128, v0 (ix2 p q) * v1 (ix2 q l') + v3 (ix2 p l')) + v6 (ix2 (0 : Fin 1) l'))
          (fun l' => v0 (ix2 p l')) (fun l' => v28 (ix2 (0 : Fin 1) l')) (fun l' => v32 (ix2 (0 : Fin 1) l')) l := by
  unfold k2_pay2
  -- the pointwise operations and the layout forms, outside in; the row before normalisation appears at `(p, ·)`
  simp only [addf_apply, maximumf_apply, mulf_apply, subf_apply, divf_apply, broadcast_apply, rsqrt_at,
    broadcastTo_1b_ab_apply, broadcastTo_a1_ab_apply, shapeCast_a_a1_apply, shapeCast_self, matmul_at]
  -- the variance's sum and the mean's sum, each over the 128 lanes of row `p`
  rw [rowSum_at, rowSum_at]
  -- the variance's summand at lane `k`: the centred entry squared, the mean under it still a reduction
  simp only [addf_apply, mulf_apply, subf_apply, divf_apply, broadcast_apply,
    broadcastTo_1b_ab_apply, broadcastTo_a1_ab_apply, shapeCast_a_a1_apply, shapeCast_self, matmul_at]
  rw [rowSum_at]
  simp only [addf_apply, broadcastTo_1b_ab_apply, shapeCast_self, matmul_at]
  -- both sides are now the same expression in the row, its mean and its variance
  unfold Cert.Spec.rowRes Cert.Spec.rowVar Cert.Spec.rowMean
  rfl

end Cert.KernelIdeal.PayLN

end
-- ==== Proof.Region2.lean ====
/-
  Region 2, the fused kernel of the user nodes, from blocks to the whole array. Grid point `t` takes rows
  `5000·t … 5000·t + 4999` of the feature array and of the message array, and the small parameter arrays whole, and writes
  the same rows of the result; a row's output depends on that row alone, and the ten row blocks tile the array, so the
  array ends as `Spec.fusedG` of the arrays the region finds.
-/
import proofs.«116802_j78829829751101_1_alg».proof.Proof.Gen.KernelIdeal.Frame
import proofs.«116802_j78829829751101_1_alg».proof.Proof.Spec
import proofs.«116802_j78829829751101_1_alg».proof.Proof.PayLN
import proofs.«116802_j78829829751101_1_alg».proof.Proof.PayFF
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region2

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Spec
open scoped BigOperators

variable (V : (c : Dev nD) → (b : Ref sig .tc) → Buf (Elt Ideal) ((c : Thread nD τ).loc b))

/-- The zero offset of every load and of the store, as the constant function. -/
theorem hz : (![0, 0] : Fin 2 → Nat) = fun _ => 0 := funext fun a => by
  match a with
  | ⟨0, _⟩ => rfl
  | ⟨1, _⟩ => rfl

/-- The printed index maps over the ten grid points: the feature window, the message window and the result window
    take row block `t`; every parameter window takes its one block. -/
theorem idx_facts : ∀ t : Fin cfg2.N,
    win2_0.index t (0 : Fin 2) = t.val ∧ win2_0.index t (1 : Fin 2) = 0
    ∧ win2_2.index t (0 : Fin 2) = t.val ∧ win2_2.index t (1 : Fin 2) = 0
    ∧ win2_10.index t (0 : Fin 2) = t.val ∧ win2_10.index t (1 : Fin 2) = 0
    ∧ win2_1.index t (0 : Fin 2) = 0 ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

/-- The result window's block `t` sits at rows `5000·t …` of the array: entry `(p, j)` of the block is entry
    `(5000·t + p, j)` of the array. -/
theorem emb_out (t : Fin cfg2.N) (p : Fin 5000) (j : Fin 128) (h : 5000 * t.val + p.val < 50000) :
    ((cfg2.win 10).blk t).view.emb (ix2 p j) = ix2 ⟨5000 * t.val + p.val, h⟩ j := by
  obtain ⟨-, -, -, -, e0, e1, -⟩ := idx_facts t
  funext a; apply Fin.ext
  match a with
  | ⟨0, _⟩ => show win2_10.index t (0 : Fin 2) * 5000 + 1 * p.val = 5000 * t.val + p.val; omega
  | ⟨1, _⟩ => show win2_10.index t (1 : Fin 2) * 128 + 1 * j.val = j.val; omega

/-- The feature window's block `t` is rows `5000·t …` of the feature array. -/
theorem feat_apply (c : Dev nD) (t : Fin cfg2.N) (p : Fin 5000) (q : Fin 128) (h : 5000 * t.val + p.val < 50000) :
    iblk2 V c 0 t (ix2 p q) = V c main_arg0 (ix2 ⟨5000 * t.val + p.val, h⟩ q) := by
  obtain ⟨e0, e1, -⟩ := idx_facts t
  show V c main_arg0 (((cfg2.win 0).blk t).view.emb (ix2 p q)) = V c main_arg0 _
  refine congrArg (V c main_arg0) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * q.val = q.val; omega

/-- The message window's block `t` is the same rows of the message array. -/
theorem msg_apply (c : Dev nD) (t : Fin cfg2.N) (p : Fin 5000) (q : Fin 128) (h : 5000 * t.val + p.val < 50000) :
    iblk2 V c 2 t (ix2 p q) = V c main_v21 (ix2 ⟨5000 * t.val + p.val, h⟩ q) := by
  obtain ⟨-, -, e0, e1, -⟩ := idx_facts t
  show V c main_v21 (((cfg2.win 2).blk t).view.emb (ix2 p q)) = V c main_v21 _
  refine congrArg (V c main_v21) (funext fun a => Fin.ext ?_)
  match a with
  | ⟨0, _⟩ => show win2_2.index t (0 : Fin 2) * 5000 + 1 * p.val = 5000 * t.val + p.val; omega
  | ⟨1, _⟩ => show win2_2.index t (1 : Fin 2) * 128 + 1 * q.val = q.val; omega

/-- The self-loop weight's one block is the whole weight. -/
theorem selfw_apply (c : Dev nD) (t : Fin cfg2.N) (a : Fin 128) (b : Fin 128) :
    iblk2 V c 1 t (ix2 a b) = V c main_arg6 (ix2 a b) := by
  obtain ⟨-, -, -, -, -, -, e10, e11, e30, e31, e40, e41, e50, e51, e60, e61, e70, e71, e80, e81, e90, e91⟩ := idx_facts t
  show V c main_arg6 (((cfg2.win 1).blk t).view.emb (ix2 a b)) = V c main_arg6 _
  refine congrArg (V c main_arg6) (funext fun x => Fin.ext ?_)
  match x with
  | ⟨0, _⟩ => show win2_1.index t (0 : Fin 2) * 128 + 1 * a.val = a.val; omega
  | ⟨1, _⟩ => show win2_1.index t (1 : Fin 2) * 128 + 1 * b.val = b.val; omega

/-- The relation bias's one block is the whole row. -/
theorem bias_apply (c : Dev nD) (t : Fin cfg2.N) (a : Fin 1) (b : Fin 128) :
    iblk2 V c 3 t (ix2 a b) = V c main_v22 (ix2 a b) := by
  obtain ⟨-, -, -, -, -, -, e10, e11, e30, e31, e40, e41, e50, e51, e60, e61, e70, e71, e80, e81, e90, e91⟩ := idx_facts t
  show V c main_v22 (((cfg2.win 3).blk t).view.emb (ix2 a b)) = V c main_v22 _
  refine congrArg (V c main_v22) (funext fun x => Fin.ext ?_)
  match x with
  | ⟨0, _⟩ => show win2_3.index t (0 : Fin 2) * 1 + 1 * a.val = a.val; omega
  | ⟨1, _⟩ => show win2_3.index t (1 : Fin 2) * 128 + 1 * b.val = b.val; omega

/-- The normalisation gain's one block is the whole row. -/
theorem gain_apply (c : Dev nD) (t : Fin cfg2.N) (a : Fin 1) (b : Fin 128) :
    iblk2 V c 4 t (ix2 a b) = V c main_v23 (ix2 a b) := by
  obtain ⟨-, -, -, -, -, -, e10, e11, e30, e31, e40, e41, e50, e51, e60, e61, e70, e71, e80, e81, e90, e91⟩ := idx_facts t
  show V c main_v23 (((cfg2.win 4).blk t).view.emb (ix2 a b)) = V c main_v23 _
  refine congrArg (V c main_v23) (funext fun x => Fin.ext ?_)
  match x with
  | ⟨0, _⟩ => show win2_4.index t (0 : Fin 2) * 1 + 1 * a.val = a.val; omega
  | ⟨1, _⟩ => show win2_4.index t (1 : Fin 2) * 128 + 1 * b.val = b.val; omega

/-- The normalisation shift's one block is the whole row. -/
theorem shift_apply (c : Dev nD) (t : Fin cfg2.N) (a : Fin 1) (b : Fin 128) :
    iblk2 V c 5 t (ix2 a b) = V c main_v24 (ix2 a b) := by
  obtain ⟨-, -, -, -, -, -, e10, e11, e30, e31, e40, e41, e50, e51, e60, e61, e70, e71, e80, e81, e90, e91⟩ := idx_facts t
  show V c main_v24 (((cfg2.win 5).blk t).view.emb (ix2 a b)) = V c main_v24 _
  refine congrArg (V c main_v24) (funext fun x => Fin.ext ?_)
  match x with
  | ⟨0, _⟩ => show win2_5.index t (0 : Fin 2) * 1 + 1 * a.val = a.val; omega
  | ⟨1, _⟩ => show win2_5.index t (1 : Fin 2) * 128 + 1 * b.val = b.val; omega

/-- The hidden layer's weight: its one block is the whole weight. -/
theorem w1_apply (c : Dev nD) (t : Fin cfg2.N) (a : Fin 128) (b : Fin 256) :
    iblk2 V c 6 t (ix2 a b) = V c main_arg12 (ix2 a b) := by
  obtain ⟨-, -, -, -, -, -, e10, e11, e30, e31, e40, e41, e50, e51, e60, e61, e70, e71, e80, e81, e90, e91⟩ := idx_facts t
  show V c main_arg12 (((cfg2.win 6).blk t).view.emb (ix2 a b)) = V c main_arg12 _
  refine congrArg (V c main_arg12) (funext fun x => Fin.ext ?_)
  match x with
  | ⟨0, _⟩ => show win2_6.index t (0 : Fin 2) * 128 + 1 * a.val = a.val; omega
  | ⟨1, _⟩ => show win2_6.index t (1 : Fin 2) * 256 + 1 * b.val = b.val; omega

/-- The hidden layer's bias: its one block is the whole row. -/
theorem b1_apply (c : Dev nD) (t : Fin cfg2.N) (a : Fin 1) (b : Fin 256) :
    iblk2 V c 7 t (ix2 a b) = V c main_v25 (ix2 a b) := by
  obtain ⟨-, -, -, -, -, -, e10, e11, e30, e31, e40, e41, e50, e51, e60, e61, e70, e71, e80, e81, e90, e91⟩ := idx_facts t
  show V c main_v25 (((cfg2.win 7).blk t).view.emb (ix2 a b)) = V c main_v25 _
  refine congrArg (V c main_v25) (funext fun x => Fin.ext ?_)
  match x with
  | ⟨0, _⟩ => show win2_7.index t (0 : Fin 2) * 1 + 1 * a.val = a.val; omega
  | ⟨1, _⟩ => show win2_7.index t (1 : Fin 2) * 256 + 1 * b.val = b.val; omega

/-- The output layer's weight: its one block is the whole weight. -/
theorem w2_apply (c : Dev nD) (t : Fin cfg2.N) (a : Fin 256) (b : Fin 128) :
    iblk2 V c 8 t (ix2 a b) = V c main_arg14 (ix2 a b) := by
  obtain ⟨-, -, -, -, -, -, e10, e11, e30, e31, e40, e41, e50, e51, e60, e61, e70, e71, e80, e81, e90, e91⟩ := idx_facts t
  show V c main_arg14 (((cfg2.win 8).blk t).view.emb (ix2 a b)) = V c main_arg14 _
  refine congrArg (V c main_arg14) (funext fun x => Fin.ext ?_)
  match x with
  | ⟨0, _⟩ => show win2_8.index t (0 : Fin 2) * 256 + 1 * a.val = a.val; omega
  | ⟨1, _⟩ => show win2_8.index t (1 : Fin 2) * 128 + 1 * b.val = b.val; omega

/-- The output layer's bias: its one block is the whole row. -/
theorem b2_apply (c : Dev nD) (t : Fin cfg2.N) (a : Fin 1) (b : Fin 128) :
    iblk2 V c 9 t (ix2 a b) = V c main_v26 (ix2 a b) := by
  obtain ⟨-, -, -, -, -, -, e10, e11, e30, e31, e40, e41, e50, e51, e60, e61, e70, e71, e80, e81, e90, e91⟩ := idx_facts t
  show V c main_v26 (((cfg2.win 9).blk t).view.emb (ix2 a b)) = V c main_v26 _
  refine congrArg (V c main_v26) (funext fun x => Fin.ext ?_)
  match x with
  | ⟨0, _⟩ => show win2_9.index t (0 : Fin 2) * 1 + 1 * a.val = a.val; omega
  | ⟨1, _⟩ => show win2_9.index t (1 : Fin 2) * 128 + 1 * b.val = b.val; omega

/-- `fusedG` at an entry given by its coordinates is `rowTail` of that row. -/
theorem fusedG_ix2 (f : Mat 50000 128) (sw : Mat 128 128) (msg : Mat 50000 128) (bias g b : Fin 128 → EReal)
    (w1 : Mat 128 256) (b1 : Fin 256 → EReal) (w2 : Mat 256 128) (b2 : Fin 128 → EReal) (r : Fin 50000) (j : Fin 128) :
    fusedG f sw msg bias g b w1 b1 w2 b2 (ix2 r j)
      = rowTail (preRow f sw msg bias r) (fun l => f (ix2 r l)) g b (fun l k => w1 (ix2 l k)) b1
          (fun k j' => w2 (ix2 k j')) b2 j := rfl

/-- What grid point `t` writes back is block `t` of `fusedG` of the arrays the region finds. -/
theorem flushed_eq (c : Dev nD) (t : Fin cfg2.N) :
    (dat2 (F := Ideal) V c).flushed 10 t = ((cfg2.win 10).blk t).view.read (Elt Ideal)
      (fusedG (V c main_arg0) (V c main_arg6) (V c main_v21)
          (fun l => V c main_v22 (ix2 (0 : Fin 1) l)) (fun l => V c main_v23 (ix2 (0 : Fin 1) l))
          (fun l => V c main_v24 (ix2 (0 : Fin 1) l)) (V c main_arg12) (fun k => V c main_v25 (ix2 (0 : Fin 1) k))
          (V c main_arg14) (fun j => V c main_v26 (ix2 (0 : Fin 1) j))) := by
  show (cfg2.win 10).cut (grid2.coords t) ((dat2 V c).after 10 t) = _
  rw [after2_10]
  unfold out2_10
  rw [View.canon_unit_zero hz]
  simp only [View.ld_unit_zero (S := S5000x128) hz, View.ld_unit_zero (S := S128x128) hz, View.ld_unit_zero (S := S1x128) hz,
    View.ld_unit_zero (S := S128x256) hz, View.ld_unit_zero (S := S1x256) hz, View.ld_unit_zero (S := S256x128) hz]
  funext y
  obtain ⟨p, j, rfl⟩ : ∃ (p : Fin 5000) (j : Fin 128), y = ix2 p j := ⟨y 0, y 1, eq_ix2 y⟩
  have ht : t.val < 10 := t.isLt
  have h : 5000 * t.val + p.val < 50000 := by have := p.isLt; omega
  show k2_pay1 (F := Ideal) (k2_pay2 (iblk2 V c 0 t) (iblk2 V c 1 t) (iblk2 V c 2 t) (iblk2 V c 3 t) (iblk2 V c 4 t) (iblk2 V c 5 t))
        (iblk2 V c 6 t) (iblk2 V c 7 t) (iblk2 V c 8 t) (iblk2 V c 9 t) (ix2 p j)
      = fusedG (V c main_arg0) (V c main_arg6) (V c main_v21)
          (fun l => V c main_v22 (ix2 (0 : Fin 1) l)) (fun l => V c main_v23 (ix2 (0 : Fin 1) l))
          (fun l => V c main_v24 (ix2 (0 : Fin 1) l)) (V c main_arg12) (fun k => V c main_v25 (ix2 (0 : Fin 1) k))
          (V c main_arg14) (fun j => V c main_v26 (ix2 (0 : Fin 1) j)) (((cfg2.win 10).blk t).view.emb (ix2 p j))
  rw [emb_out t p j h, fusedG_ix2, PayFF.pay1_apply]
  unfold rowTail
  simp only [PayLN.pay2_apply, feat_apply V c t p _ h, msg_apply V c t p _ h, selfw_apply V c t, bias_apply V c t, gain_apply V c t,
    shift_apply V c t, w1_apply V c t, b1_apply V c t, w2_apply V c t, b2_apply V c t]
  -- both sides are now the same row function: the row before normalisation is `preRow` of the region's arrays
  rfl

/-- An index of the result array is in point `t`'s block iff each coordinate is in the block's range on its axis. -/
theorem mem_blk (t : Fin cfg2.N) (i : S50000x128.Idx) :
    i ∈ ((cfg2.win 10).blk t).view.set ↔ ∀ a : Fin 2, win2_10.index t a * S5000x128.size a ≤ (i a).val
      ∧ (i a).val < win2_10.index t a * S5000x128.size a + S5000x128.size a := by
  show i ∈ ((View.whole main_v27).slice (win2_10.rect t)).set ↔ _
  rw [View.set_slice_whole, Rect.mem_set_unit]
  exact Iff.rfl

/-- The ten row blocks tile the array: row `r` is in the block of point `r / 5000`, and every point writes back. -/
theorem cover (i : S50000x128.Idx) :
    ∃ t : Fin cfg2.N, (cfg2.win 10).flush t = true ∧ i ∈ ((cfg2.win 10).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show (i 0).val / 5000 < 10; omega⟩, rfl⟩
  obtain ⟨-, -, -, -, e0, e1, -⟩ := idx_facts t
  refine ⟨t, flush2_10 t, ?_⟩
  rw [mem_blk]
  intro a
  match a with
  | ⟨0, _⟩ =>
    show win2_10.index t (0 : Fin 2) * 5000 ≤ (i 0).val ∧ (i 0).val < win2_10.index t (0 : Fin 2) * 5000 + 5000
    omega
  | ⟨1, _⟩ =>
    show win2_10.index t (1 : Fin 2) * 128 ≤ (i 1).val ∧ (i 1).val < win2_10.index t (1 : Fin 2) * 128 + 128
    omega

/-- What region 2 leaves in its result array, whatever the buffers hold when it is entered. -/
theorem arr (c : Dev nD) :
    (dat2 (F := Ideal) V c).arrAt 10 cfg2.N
      = fusedG (V c main_arg0) (V c main_arg6) (V c main_v21)
          (fun l => V c main_v22 (ix2 (0 : Fin 1) l)) (fun l => V c main_v23 (ix2 (0 : Fin 1) l))
          (fun l => V c main_v24 (ix2 (0 : Fin 1) l)) (V c main_arg12) (fun k => V c main_v25 (ix2 (0 : Fin 1) k))
          (V c main_arg14) (fun j => V c main_v26 (ix2 (0 : Fin 1) j)) :=
  (dat2 (F := Ideal) V c).arrAt_eq_of_cover 10 _ (fun t _ => flushed_eq V c t) cover

end Cert.KernelIdeal.Region2

end
-- ==== Proof.Region3.lean ====
/-
  Region 3, the fused kernel of the item nodes, from blocks to the whole array. Grid point `t` takes rows
  `5000·t … 5000·t + 4999` of the feature array and of the message array, and the small parameter arrays whole, and writes
  the same rows of the result; a row's output depends on that row alone, and the ten row blocks tile the array, so the
  array ends as `Spec.fusedG` of the arrays the region finds.
-/
import proofs.«116802_j78829829751101_1_alg».proof.Proof.Gen.KernelIdeal.Frame
import proofs.«116802_j78829829751101_1_alg».proof.Proof.Spec
import proofs.«116802_j78829829751101_1_alg».proof.Proof.PayLN
import proofs.«116802_j78829829751101_1_alg».proof.Proof.PayFF
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Region3

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Spec
open scoped BigOperators

variable (V : (c : Dev nD) → (b : Ref sig .tc) → Buf (Elt Ideal) ((c : Thread nD τ).loc b))

/-- The zero offset of every load and of the store, as the constant function. -/
theorem hz : (![0, 0] : Fin 2 → Nat) = fun _ => 0 := funext fun a => by
  match a with
  | ⟨0, _⟩ => rfl
  | ⟨1, _⟩ => rfl

/-- The printed index maps over the ten grid points: the feature window, the message window and the result window
    take row block `t`; every parameter window takes its one block. -/
theorem idx_facts : ∀ t : Fin cfg3.N,
    win3_0.index t (0 : Fin 2) = t.val ∧ win3_0.index t (1 : Fin 2) = 0
    ∧ win3_2.index t (0 : Fin 2) = t.val ∧ win3_2.index t (1 : Fin 2) = 0
    ∧ win3_10.index t (0 : Fin 2) = t.val ∧ win3_10.index t (1 : Fin 2) = 0
    ∧ win3_1.index t (0 : Fin 2) = 0 ∧ win3_1.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0 :=
  (by decide +kernel : ∀ t : Fin grid3.N, _)

/-- The result window's block `t` sits at rows `5000·t …` of the array: entry `(p, j)` of the block is entry
    `(5000·t + p, j)` of the array. -/
theorem emb_out (t : Fin cfg3.N) (p : Fin 5000) (j : Fin 128) (h : 5000 * t.val + p.val < 50000) :
    ((cfg3.win 10).blk t).view.emb (ix2 p j) = ix2 ⟨5000 * t.val + p.val, h⟩ j := by
  obtain ⟨-, -, -, -, e0, e1, -⟩ := idx_facts t
  funext a; apply Fin.ext
  match a with
  | ⟨0, _⟩ => show win3_10.index t (0 : Fin 2) * 5000 + 1 * p.val = 5000 * t.val + p.val; omega
  | ⟨1, _⟩ => show win3_10.index t (1 : Fin 2) * 128 + 1 * j.val = j.val; omega

/-- The feature window's block `t` is rows `5000·t …` of the feature array. -/
theorem feat_apply (c : Dev nD) (t : Fin cfg3.N) (p : Fin 5000) (q : Fin 128) (h : 5000 * t.val + p.val < 50000) :
    iblk3 V c 0 t (ix2 p q) = V c main_arg1 (ix2 ⟨5000 * t.val + p.val, h⟩ q) := by
  obtain ⟨e0, e1, -⟩ := idx_facts t
  show V c main_arg1 (((cfg3.win 0).blk t).view.emb (ix2 p q)) = V c main_arg1 _
  refine congrArg (V c main_arg1) (funext fun a => Fin.ext ?_)
  match a with
  | ⟨0, _⟩ => show win3_0.index t (0 : Fin 2) * 5000 + 1 * p.val = 5000 * t.val + p.val; omega
  | ⟨1, _⟩ => show win3_0.index t (1 : Fin 2) * 128 + 1 * q.val = q.val; omega

/-- The message window's block `t` is the same rows of the message array. -/
theorem msg_apply (c : Dev nD) (t : Fin cfg3.N) (p : Fin 5000) (q : Fin 128) (h : 5000 * t.val + p.val < 50000) :
    iblk3 V c 2 t (ix2 p q) = V c main_v11 (ix2 ⟨5000 * t.val + p.val, h⟩ q) := by
  obtain ⟨-, -, e0, e1, -⟩ := idx_facts t
  show V c main_v11 (((cfg3.win 2).blk t).view.emb (ix2 p q)) = V c main_v11 _
  refine congrArg (V c main_v11) (funext fun a => Fin.ext ?_)
  match a with
  | ⟨0, _⟩ => show win3_2.index t (0 : Fin 2) * 5000 + 1 * p.val = 5000 * t.val + p.val; omega
  | ⟨1, _⟩ => show win3_2.index t (1 : Fin 2) * 128 + 1 * q.val = q.val; omega

/-- The self-loop weight's one block is the whole weight. -/
theorem selfw_apply (c : Dev nD) (t : Fin cfg3.N) (a : Fin 128) (b : Fin 128) :
    iblk3 V c 1 t (ix2 a b) = V c main_arg7 (ix2 a b) := by
  obtain ⟨-, -, -, -, -, -, e10, e11, e30, e31, e40, e41, e50, e51, e60, e61, e70, e71, e80, e81, e90, e91⟩ := idx_facts t
  show V c main_arg7 (((cfg3.win 1).blk t).view.emb (ix2 a b)) = V c main_arg7 _
  refine congrArg (V c main_arg7) (funext fun x => Fin.ext ?_)
  match x with
  | ⟨0, _⟩ => show win3_1.index t (0 : Fin 2) * 128 + 1 * a.val = a.val; omega
  | ⟨1, _⟩ => show win3_1.index t (1 : Fin 2) * 128 + 1 * b.val = b.val; omega

/-- The relation bias's one block is the whole row. -/
theorem bias_apply (c : Dev nD) (t : Fin cfg3.N) (a : Fin 1) (b : Fin 128) :
    iblk3 V c 3 t (ix2 a b) = V c main_v28 (ix2 a b) := by
  obtain ⟨-, -, -, -, -, -, e10, e11, e30, e31, e40, e41, e50, e51, e60, e61, e70, e71, e80, e81, e90, e91⟩ := idx_facts t
  show V c main_v28 (((cfg3.win 3).blk t).view.emb (ix2 a b)) = V c main_v28 _
  refine congrArg (V c main_v28) (funext fun x => Fin.ext ?_)
  match x with
  | ⟨0, _⟩ => show win3_3.index t (0 : Fin 2) * 1 + 1 * a.val = a.val; omega
  | ⟨1, _⟩ => show win3_3.index t (1 : Fin 2) * 128 + 1 * b.val = b.val; omega

/-- The normalisation gain's one block is the whole row. -/
theorem gain_apply (c : Dev nD) (t : Fin cfg3.N) (a : Fin 1) (b : Fin 128) :
    iblk3 V c 4 t (ix2 a b) = V c main_v29 (ix2 a b) := by
  obtain ⟨-, -, -, -, -, -, e10, e11, e30, e31, e40, e41, e50, e51, e60, e61, e70, e71, e80, e81, e90, e91⟩ := idx_facts t
  show V c main_v29 (((cfg3.win 4).blk t).view.emb (ix2 a b)) = V c main_v29 _
  refine congrArg (V c main_v29) (funext fun x => Fin.ext ?_)
  match x with
  | ⟨0, _⟩ => show win3_4.index t (0 : Fin 2) * 1 + 1 * a.val = a.val; omega
  | ⟨1, _⟩ => show win3_4.index t (1 : Fin 2) * 128 + 1 * b.val = b.val; omega

/-- The normalisation shift's one block is the whole row. -/
theorem shift_apply (c : Dev nD) (t : Fin cfg3.N) (a : Fin 1) (b : Fin 128) :
    iblk3 V c 5 t (ix2 a b) = V c main_v30 (ix2 a b) := by
  obtain ⟨-, -, -, -, -, -, e10, e11, e30, e31, e40, e41, e50, e51, e60, e61, e70, e71, e80, e81, e90, e91⟩ := idx_facts t
  show V c main_v30 (((cfg3.win 5).blk t).view.emb (ix2 a b)) = V c main_v30 _
  refine congrArg (V c main_v30) (funext fun x => Fin.ext ?_)
  match x with
  | ⟨0, _⟩ => show win3_5.index t (0 : Fin 2) * 1 + 1 * a.val = a.val; omega
  | ⟨1, _⟩ => show win3_5.index t (1 : Fin 2) * 128 + 1 * b.val = b.val; omega

/-- The hidden layer's weight: its one block is the whole weight. -/
theorem w1_apply (c : Dev nD) (t : Fin cfg3.N) (a : Fin 128) (b : Fin 256) :
    iblk3 V c 6 t (ix2 a b) = V c main_arg12 (ix2 a b) := by
  obtain ⟨-, -, -, -, -, -, e10, e11, e30, e31, e40, e41, e50, e51, e60, e61, e70, e71, e80, e81, e90, e91⟩ := idx_facts t
  show V c main_arg12 (((cfg3.win 6).blk t).view.emb (ix2 a b)) = V c main_arg12 _
  refine congrArg (V c main_arg12) (funext fun x => Fin.ext ?_)
  match x with
  | ⟨0, _⟩ => show win3_6.index t (0 : Fin 2) * 128 + 1 * a.val = a.val; omega
  | ⟨1, _⟩ => show win3_6.index t (1 : Fin 2) * 256 + 1 * b.val = b.val; omega

/-- The hidden layer's bias: its one block is the whole row. -/
theorem b1_apply (c : Dev nD) (t : Fin cfg3.N) (a : Fin 1) (b : Fin 256) :
    iblk3 V c 7 t (ix2 a b) = V c main_v31 (ix2 a b) := by
  obtain ⟨-, -, -, -, -, -, e10, e11, e30, e31, e40, e41, e50, e51, e60, e61, e70, e71, e80, e81, e90, e91⟩ := idx_facts t
  show V c main_v31 (((cfg3.win 7).blk t).view.emb (ix2 a b)) = V c main_v31 _
  refine congrArg (V c main_v31) (funext fun x => Fin.ext ?_)
  match x with
  | ⟨0, _⟩ => show win3_7.index t (0 : Fin 2) * 1 + 1 * a.val = a.val; omega
  | ⟨1, _⟩ => show win3_7.index t (1 : Fin 2) * 256 + 1 * b.val = b.val; omega

/-- The output layer's weight: its one block is the whole weight. -/
theorem w2_apply (c : Dev nD) (t : Fin cfg3.N) (a : Fin 256) (b : Fin 128) :
    iblk3 V c 8 t (ix2 a b) = V c main_arg14 (ix2 a b) := by
  obtain ⟨-, -, -, -, -, -, e10, e11, e30, e31, e40, e41, e50, e51, e60, e61, e70, e71, e80, e81, e90, e91⟩ := idx_facts t
  show V c main_arg14 (((cfg3.win 8).blk t).view.emb (ix2 a b)) = V c main_arg14 _
  refine congrArg (V c main_arg14) (funext fun x => Fin.ext ?_)
  match x with
  | ⟨0, _⟩ => show win3_8.index t (0 : Fin 2) * 256 + 1 * a.val = a.val; omega
  | ⟨1, _⟩ => show win3_8.index t (1 : Fin 2) * 128 + 1 * b.val = b.val; omega

/-- The output layer's bias: its one block is the whole row. -/
theorem b2_apply (c : Dev nD) (t : Fin cfg3.N) (a : Fin 1) (b : Fin 128) :
    iblk3 V c 9 t (ix2 a b) = V c main_v32 (ix2 a b) := by
  obtain ⟨-, -, -, -, -, -, e10, e11, e30, e31, e40, e41, e50, e51, e60, e61, e70, e71, e80, e81, e90, e91⟩ := idx_facts t
  show V c main_v32 (((cfg3.win 9).blk t).view.emb (ix2 a b)) = V c main_v32 _
  refine congrArg (V c main_v32) (funext fun x => Fin.ext ?_)
  match x with
  | ⟨0, _⟩ => show win3_9.index t (0 : Fin 2) * 1 + 1 * a.val = a.val; omega
  | ⟨1, _⟩ => show win3_9.index t (1 : Fin 2) * 128 + 1 * b.val = b.val; omega

/-- `fusedG` at an entry given by its coordinates is `rowTail` of that row. -/
theorem fusedG_ix2 (f : Mat 50000 128) (sw : Mat 128 128) (msg : Mat 50000 128) (bias g b : Fin 128 → EReal)
    (w1 : Mat 128 256) (b1 : Fin 256 → EReal) (w2 : Mat 256 128) (b2 : Fin 128 → EReal) (r : Fin 50000) (j : Fin 128) :
    fusedG f sw msg bias g b w1 b1 w2 b2 (ix2 r j)
      = rowTail (preRow f sw msg bias r) (fun l => f (ix2 r l)) g b (fun l k => w1 (ix2 l k)) b1
          (fun k j' => w2 (ix2 k j')) b2 j := rfl

/-- What grid point `t` writes back is block `t` of `fusedG` of the arrays the region finds. -/
theorem flushed_eq (c : Dev nD) (t : Fin cfg3.N) :
    (dat3 (F := Ideal) V c).flushed 10 t = ((cfg3.win 10).blk t).view.read (Elt Ideal)
      (fusedG (V c main_arg1) (V c main_arg7) (V c main_v11)
          (fun l => V c main_v28 (ix2 (0 : Fin 1) l)) (fun l => V c main_v29 (ix2 (0 : Fin 1) l))
          (fun l => V c main_v30 (ix2 (0 : Fin 1) l)) (V c main_arg12) (fun k => V c main_v31 (ix2 (0 : Fin 1) k))
          (V c main_arg14) (fun j => V c main_v32 (ix2 (0 : Fin 1) j))) := by
  show (cfg3.win 10).cut (grid3.coords t) ((dat3 V c).after 10 t) = _
  rw [after3_10]
  unfold out3_10
  rw [View.canon_unit_zero hz]
  simp only [View.ld_unit_zero (S := S5000x128) hz, View.ld_unit_zero (S := S128x128) hz, View.ld_unit_zero (S := S1x128) hz,
    View.ld_unit_zero (S := S128x256) hz, View.ld_unit_zero (S := S1x256) hz, View.ld_unit_zero (S := S256x128) hz]
  funext y
  obtain ⟨p, j, rfl⟩ : ∃ (p : Fin 5000) (j : Fin 128), y = ix2 p j := ⟨y 0, y 1, eq_ix2 y⟩
  have ht : t.val < 10 := t.isLt
  have h : 5000 * t.val + p.val < 50000 := by have := p.isLt; omega
  show k2_pay1 (F := Ideal) (k2_pay2 (iblk3 V c 0 t) (iblk3 V c 1 t) (iblk3 V c 2 t) (iblk3 V c 3 t) (iblk3 V c 4 t) (iblk3 V c 5 t))
        (iblk3 V c 6 t) (iblk3 V c 7 t) (iblk3 V c 8 t) (iblk3 V c 9 t) (ix2 p j)
      = fusedG (V c main_arg1) (V c main_arg7) (V c main_v11)
          (fun l => V c main_v28 (ix2 (0 : Fin 1) l)) (fun l => V c main_v29 (ix2 (0 : Fin 1) l))
          (fun l => V c main_v30 (ix2 (0 : Fin 1) l)) (V c main_arg12) (fun k => V c main_v31 (ix2 (0 : Fin 1) k))
          (V c main_arg14) (fun j => V c main_v32 (ix2 (0 : Fin 1) j)) (((cfg3.win 10).blk t).view.emb (ix2 p j))
  rw [emb_out t p j h, fusedG_ix2, PayFF.pay1_apply]
  unfold rowTail
  simp only [PayLN.pay2_apply, feat_apply V c t p _ h, msg_apply V c t p _ h, selfw_apply V c t, bias_apply V c t, gain_apply V c t,
    shift_apply V c t, w1_apply V c t, b1_apply V c t, w2_apply V c t, b2_apply V c t]
  -- both sides are now the same row function: the row before normalisation is `preRow` of the region's arrays
  rfl

/-- An index of the result array is in point `t`'s block iff each coordinate is in the block's range on its axis. -/
theorem mem_blk (t : Fin cfg3.N) (i : S50000x128.Idx) :
    i ∈ ((cfg3.win 10).blk t).view.set ↔ ∀ a : Fin 2, win3_10.index t a * S5000x128.size a ≤ (i a).val
      ∧ (i a).val < win3_10.index t a * S5000x128.size a + S5000x128.size a := by
  show i ∈ ((View.whole main_v33).slice (win3_10.rect t)).set ↔ _
  rw [View.set_slice_whole, Rect.mem_set_unit]
  exact Iff.rfl

/-- The ten row blocks tile the array: row `r` is in the block of point `r / 5000`, and every point writes back. -/
theorem cover (i : S50000x128.Idx) :
    ∃ t : Fin cfg3.N, (cfg3.win 10).flush t = true ∧ i ∈ ((cfg3.win 10).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show (i 0).val / 5000 < 10; omega⟩, rfl⟩
  obtain ⟨-, -, -, -, e0, e1, -⟩ := idx_facts t
  refine ⟨t, flush3_10 t, ?_⟩
  rw [mem_blk]
  intro a
  match a with
  | ⟨0, _⟩ =>
    show win3_10.index t (0 : Fin 2) * 5000 ≤ (i 0).val ∧ (i 0).val < win3_10.index t (0 : Fin 2) * 5000 + 5000
    omega
  | ⟨1, _⟩ =>
    show win3_10.index t (1 : Fin 2) * 128 ≤ (i 1).val ∧ (i 1).val < win3_10.index t (1 : Fin 2) * 128 + 128
    omega

/-- What region 3 leaves in its result array, whatever the buffers hold when it is entered. -/
theorem arr (c : Dev nD) :
    (dat3 (F := Ideal) V c).arrAt 10 cfg3.N
      = fusedG (V c main_arg1) (V c main_arg7) (V c main_v11)
          (fun l => V c main_v28 (ix2 (0 : Fin 1) l)) (fun l => V c main_v29 (ix2 (0 : Fin 1) l))
          (fun l => V c main_v30 (ix2 (0 : Fin 1) l)) (V c main_arg12) (fun k => V c main_v31 (ix2 (0 : Fin 1) k))
          (V c main_arg14) (fun j => V c main_v32 (ix2 (0 : Fin 1) j)) :=
  (dat3 (F := Ideal) V c).arrAt_eq_of_cover 10 _ (fun t _ => flushed_eq V c t) cover

end Cert.KernelIdeal.Region3

end
-- ==== Proof.HostChain.lean ====
/-
  From the launch to the return, buffer by buffer. The program is four kernel regions with two stretches of host
  operations between them: the two transforms, then the gathers and scatter-adds that turn each transform into the other
  node type's messages (and five parameter vectors reshaped to rows), then the user nodes' fused region, five more
  reshapes, and the item nodes' fused region. A segment changes only the buffers it writes; every other buffer keeps its
  contents across it. So each region finds its argument arrays as launched, the message arrays as `gs` of the other
  side's transform, and the parameter rows as the parameter vectors — and its own result, once written, is never written
  again. With each region's whole-array value this gives the two returned arrays as `Spec.fusedG` of the launch arguments.
-/
import proofs.«116802_j78829829751101_1_alg».proof.Proof.Gen.KernelIdeal.Frame
import proofs.«116802_j78829829751101_1_alg».proof.Proof.Spec
import proofs.«116802_j78829829751101_1_alg».proof.Proof.Region0
import proofs.«116802_j78829829751101_1_alg».proof.Proof.Region1
import proofs.«116802_j78829829751101_1_alg».proof.Proof.Region2
import proofs.«116802_j78829829751101_1_alg».proof.Proof.Region3
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.HostChain

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Spec
open scoped BigOperators

variable (m : (ℓ : Loc nD τ sig) → Buf (Elt Ideal) ℓ) (ρ : Dev nD → PrngReg)

/-! ## A buffer a segment does not write keeps its contents across it -/

/-- In each region every window but the result's is an input window. -/
theorem inputs0 : ∀ w : Fin cfg0.W, Pipeline.arrRef spec0 w ≠ main_v0 → (cfg0.win w).isOut = false := by decide
theorem inputs1 : ∀ w : Fin cfg1.W, Pipeline.arrRef spec1 w ≠ main_v1 → (cfg1.win w).isOut = false := by decide
theorem inputs2 : ∀ w : Fin cfg2.W, Pipeline.arrRef spec2 w ≠ main_v27 → (cfg2.win w).isOut = false := by decide

/-- Across region 0 every buffer but its result keeps its contents: an input window's array is written back as found,
    and a buffer that is no window's array is not touched. -/
theorem keep1 (c : Dev nD) (b : Ref sig .tc) (hb : b ≠ main_v0) :
    W1 m ρ c (Proc.devRef .tc b) = W0 m ρ c (Proc.devRef .tc b) := by
  by_cases h : ∃ w : Fin cfg0.W, Pipeline.arrRef spec0 w = b
  · obtain ⟨w, rfl⟩ := h
    exact (W1_arr m ρ c w).trans (((dat0 (V0 m ρ) c).arrAt_in w (inputs0 w hb) _).trans (A_eq0 (V0 m ρ) c w))
  · exact W1_of_ne m ρ c b fun w e => h ⟨w, e⟩

/-- The same across region 1. -/
theorem keep2 (c : Dev nD) (b : Ref sig .tc) (hb : b ≠ main_v1) :
    W2 m ρ c (Proc.devRef .tc b) = W1 m ρ c (Proc.devRef .tc b) := by
  by_cases h : ∃ w : Fin cfg1.W, Pipeline.arrRef spec1 w = b
  · obtain ⟨w, rfl⟩ := h
    exact (W2_arr m ρ c w).trans (((dat1 (V1 m ρ) c).arrAt_in w (inputs1 w hb) _).trans (A_eq1 (V1 m ρ) c w))
  · exact W2_of_ne m ρ c b fun w e => h ⟨w, e⟩

/-- The same across region 2. -/
theorem keep4 (c : Dev nD) (b : Ref sig .tc) (hb : b ≠ main_v27) :
    W4 m ρ c (Proc.devRef .tc b) = W3 m ρ c (Proc.devRef .tc b) := by
  by_cases h : ∃ w : Fin cfg2.W, Pipeline.arrRef spec2 w = b
  · obtain ⟨w, rfl⟩ := h
    exact (W4_arr m ρ c w).trans (((dat2 (V3 m ρ) c).arrAt_in w (inputs2 w hb) _).trans (A_eq2 (V3 m ρ) c w))
  · exact W4_of_ne m ρ c b fun w e => h ⟨w, e⟩

/-- The buffers the host operations between regions 1 and 2 write. -/
abbrev writes2 : List (Ref sig .tc) :=
  [main_c, main_v2, main_v3, main_c_0, main_v4, main_v5, main_v6, main_v7, main_v8, main_cst, main_v9, main_v10, main_v11,
   main_c_1, main_v12, main_v13, main_c_2, main_v14, main_v15, main_v16, main_v17, main_v18, main_cst_3, main_v19, main_v20,
   main_v21, main_v22, main_v23, main_v24, main_v25, main_v26]

/-- A buffer none of those operations writes keeps its contents across them. -/
theorem keep3 (c : Dev nD) (b : Ref sig .tc) (hb : ∀ r ∈ writes2, b ≠ r) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by decide))))

/-- The buffers the host operations between regions 2 and 3 write: five reshaped parameter rows. -/
abbrev writes3 : List (Ref sig .tc) := [main_v28, main_v29, main_v30, main_v31, main_v32]

/-- A buffer none of those operations writes keeps its contents across them. -/
theorem keep5 (c : Dev nD) (b : Ref sig .tc) (hb : ∀ r ∈ writes3, b ≠ r) :
    W5 m ρ c (Proc.devRef .tc b) = W4 m ρ c (Proc.devRef .tc b) :=
  StableHlo.after_of_forall_not_mem (b := Proc.devRef .tc b) _ _ (List.forall_iff_forall_mem.mp (by
    simp only [hostOps3, List.Forall, StableHlo.reshape_writes, Finset.mem_singleton]
    repeat' apply And.intro
    all_goals exact StableHlo.devRef_ne_of_ne (hb _ (by decide))))

/-- A buffer nothing before region 2 writes reaches it as launched. -/
theorem at3 (c : Dev nD) (b : Ref sig .tc) (h0 : b ≠ main_v0) (h1 : b ≠ main_v1) (h2 : ∀ r ∈ writes2, b ≠ r) :
    W3 m ρ c (Proc.devRef .tc b) = W0 m ρ c (Proc.devRef .tc b) :=
  (keep3 m ρ c b h2).trans ((keep2 m ρ c b h1).trans (keep1 m ρ c b h0))

/-- … and a buffer nothing before region 3 writes reaches it as launched. -/
theorem at5 (c : Dev nD) (b : Ref sig .tc) (h0 : b ≠ main_v0) (h1 : b ≠ main_v1) (h2 : ∀ r ∈ writes2, b ≠ r)
    (h4 : b ≠ main_v27) (h5 : ∀ r ∈ writes3, b ≠ r) :
    W5 m ρ c (Proc.devRef .tc b) = W0 m ρ c (Proc.devRef .tc b) :=
  (keep5 m ρ c b h5).trans ((keep4 m ρ c b h4).trans (at3 m ρ c b h0 h1 h2))

/-! ## What the host operations between the regions leave -/

/-- The messages: rows of `t` gathered at the edges' sources `s` (a negative index wrapped once by the row count) and
    added up at the edges' destinations `d`, from zero. Never opened: both programs apply the same operations. -/
def gs (t : FVec Ideal S50000x128 .f32) (s d : IVec S600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 t
      (broadcastInDim S600000x1 ![0] bcast_S600000_S600000x1_0
        (select (cmpi .slt s (broadcastInDim S600000 ![] bcast_S_S600000 (constantI S_ 32 0#32)))
          (addi s (broadcastInDim S600000 ![] bcast_S_S600000 (constantI S_ 32 50000#32))) s)))

/-- The user nodes' message array as region 2 finds it: `gs` of region 1's result and the two edge lists. -/
theorem v21_at3 (c : Dev nD) :
    W3 m ρ c (Proc.devRef .tc main_v21)
      = gs (W2 m ρ c (Proc.devRef .tc main_v1)) (W2 m ρ c (Proc.devRef .tc main_arg18)) (W2 m ρ c (Proc.devRef .tc main_arg19)) := by
  show StableHlo.after hostOps2 (W2 m ρ c) (Proc.devRef .tc main_v21) = _
  after_results
  rfl

/-- The item nodes' message array after the same stretch: `gs` of region 0's result and the other two edge lists. -/
theorem v11_at3 (c : Dev nD) :
    W3 m ρ c (Proc.devRef .tc main_v11)
      = gs (W2 m ρ c (Proc.devRef .tc main_v0)) (W2 m ρ c (Proc.devRef .tc main_arg16)) (W2 m ρ c (Proc.devRef .tc main_arg17)) := by
  show StableHlo.after hostOps2 (W2 m ρ c) (Proc.devRef .tc main_v11) = _
  after_results
  rfl

/-- A parameter vector reshaped to one row, read at column `l` of that row, is the vector at `l`. -/
theorem row_of_reshape {a : ℕ} (x : (⟨1, ![a]⟩ : Shape).Idx → EReal) (h : (⟨1, ![a]⟩ : Shape).ShapeCasts ⟨2, ![1, a]⟩)
    (y : (⟨2, ![1, a]⟩ : Shape).Idx → EReal) (e : y = fun i => shapeCast ⟨2, ![1, a]⟩ x h i) (l : Fin a) :
    y (ix2 (0 : Fin 1) l) = x (ix1 l) := by
  rw [e]; exact shapeCast_a_1a_apply x h 0 l

/-- The five parameter rows region 2 finds are the parameter vectors as they stood before the stretch. -/
theorem v22_at3 (c : Dev nD) (l : Fin 128) :
    W3 m ρ c (Proc.devRef .tc main_v22) (ix2 (0 : Fin 1) l) = W2 m ρ c (Proc.devRef .tc main_arg5) (ix1 l) :=
  row_of_reshape (W2 m ρ c (Proc.devRef .tc main_arg5)) shapeCasts_S128_S1x128 _ (by
    show StableHlo.after hostOps2 (W2 m ρ c) (Proc.devRef .tc main_v22) = _
    after_results
    rfl) l
theorem v23_at3 (c : Dev nD) (l : Fin 128) :
    W3 m ρ c (Proc.devRef .tc main_v23) (ix2 (0 : Fin 1) l) = W2 m ρ c (Proc.devRef .tc main_arg8) (ix1 l) :=
  row_of_reshape (W2 m ρ c (Proc.devRef .tc main_arg8)) shapeCasts_S128_S1x128 _ (by
    show StableHlo.after hostOps2 (W2 m ρ c) (Proc.devRef .tc main_v23) = _
    after_results
    rfl) l
theorem v24_at3 (c : Dev nD) (l : Fin 128) :
    W3 m ρ c (Proc.devRef .tc main_v24) (ix2 (0 : Fin 1) l) = W2 m ρ c (Proc.devRef .tc main_arg9) (ix1 l) :=
  row_of_reshape (W2 m ρ c (Proc.devRef .tc main_arg9)) shapeCasts_S128_S1x128 _ (by
    show StableHlo.after hostOps2 (W2 m ρ c) (Proc.devRef .tc main_v24) = _
    after_results
    rfl) l
theorem v25_at3 (c : Dev nD) (k : Fin 256) :
    W3 m ρ c (Proc.devRef .tc main_v25) (ix2 (0 : Fin 1) k) = W2 m ρ c (Proc.devRef .tc main_arg13) (ix1 k) :=
  row_of_reshape (W2 m ρ c (Proc.devRef .tc main_arg13)) shapeCasts_S256_S1x256 _ (by
    show StableHlo.after hostOps2 (W2 m ρ c) (Proc.devRef .tc main_v25) = _
    after_results
    rfl) k
theorem v26_at3 (c : Dev nD) (j : Fin 128) :
    W3 m ρ c (Proc.devRef .tc main_v26) (ix2 (0 : Fin 1) j) = W2 m ρ c (Proc.devRef .tc main_arg15) (ix1 j) :=
  row_of_reshape (W2 m ρ c (Proc.devRef .tc main_arg15)) shapeCasts_S128_S1x128 _ (by
    show StableHlo.after hostOps2 (W2 m ρ c) (Proc.devRef .tc main_v26) = _
    after_results
    rfl) j

/-- The five parameter rows region 3 finds, likewise. -/
theorem v28_at5 (c : Dev nD) (l : Fin 128) :
    W5 m ρ c (Proc.devRef .tc main_v28) (ix2 (0 : Fin 1) l) = W4 m ρ c (Proc.devRef .tc main_arg3) (ix1 l) :=
  row_of_reshape (W4 m ρ c (Proc.devRef .tc main_arg3)) shapeCasts_S128_S1x128 _ (by
    show StableHlo.after hostOps3 (W4 m ρ c) (Proc.devRef .tc main_v28) = _
    after_results
    rfl) l
theorem v29_at5 (c : Dev nD) (l : Fin 128) :
    W5 m ρ c (Proc.devRef .tc main_v29) (ix2 (0 : Fin 1) l) = W4 m ρ c (Proc.devRef .tc main_arg10) (ix1 l) :=
  row_of_reshape (W4 m ρ c (Proc.devRef .tc main_arg10)) shapeCasts_S128_S1x128 _ (by
    show StableHlo.after hostOps3 (W4 m ρ c) (Proc.devRef .tc main_v29) = _
    after_results
    rfl) l
theorem v30_at5 (c : Dev nD) (l : Fin 128) :
    W5 m ρ c (Proc.devRef .tc main_v30) (ix2 (0 : Fin 1) l) = W4 m ρ c (Proc.devRef .tc main_arg11) (ix1 l) :=
  row_of_reshape (W4 m ρ c (Proc.devRef .tc main_arg11)) shapeCasts_S128_S1x128 _ (by
    show StableHlo.after hostOps3 (W4 m ρ c) (Proc.devRef .tc main_v30) = _
    after_results
    rfl) l
theorem v31_at5 (c : Dev nD) (k : Fin 256) :
    W5 m ρ c (Proc.devRef .tc main_v31) (ix2 (0 : Fin 1) k) = W4 m ρ c (Proc.devRef .tc main_arg13) (ix1 k) :=
  row_of_reshape (W4 m ρ c (Proc.devRef .tc main_arg13)) shapeCasts_S256_S1x256 _ (by
    show StableHlo.after hostOps3 (W4 m ρ c) (Proc.devRef .tc main_v31) = _
    after_results
    rfl) k
theorem v32_at5 (c : Dev nD) (j : Fin 128) :
    W5 m ρ c (Proc.devRef .tc main_v32) (ix2 (0 : Fin 1) j) = W4 m ρ c (Proc.devRef .tc main_arg15) (ix1 j) :=
  row_of_reshape (W4 m ρ c (Proc.devRef .tc main_arg15)) shapeCasts_S128_S1x128 _ (by
    show StableHlo.after hostOps3 (W4 m ρ c) (Proc.devRef .tc main_v32) = _
    after_results
    rfl) j

/-! ## The two results as functions of the launch arguments -/

/-- Region 0's result, when the host operations read it: the user features' transform. -/
theorem v0_at2 (c : Dev nD) :
    W2 m ρ c (Proc.devRef .tc main_v0) = matG (m ((c : Thread nD τ).loc main_arg0)) (m ((c : Thread nD τ).loc main_arg2)) :=
  (keep2 m ρ c main_v0 (by decide)).trans ((W1_arr m ρ c 2).trans (Region0.arr (V0 m ρ) c))

/-- Region 1's result: the item features' transform (region 0 wrote neither of region 1's inputs). -/
theorem v1_at2 (c : Dev nD) :
    W2 m ρ c (Proc.devRef .tc main_v1) = matG (m ((c : Thread nD τ).loc main_arg1)) (m ((c : Thread nD τ).loc main_arg4)) := by
  refine (W2_arr m ρ c 2).trans ((Region1.arr (V1 m ρ) c).trans ?_)
  rw [show V1 m ρ c main_arg1 = m ((c : Thread nD τ).loc main_arg1) from keep1 m ρ c main_arg1 (by decide),
    show V1 m ρ c main_arg4 = m ((c : Thread nD τ).loc main_arg4) from keep1 m ρ c main_arg4 (by decide)]

/-- An argument buffer when the host operations between regions 1 and 2 read it. -/
theorem arg_at2 (c : Dev nD) (b : Ref sig .tc) (h0 : b ≠ main_v0) (h1 : b ≠ main_v1) :
    W2 m ρ c (Proc.devRef .tc b) = W0 m ρ c (Proc.devRef .tc b) :=
  (keep2 m ρ c b h1).trans (keep1 m ρ c b h0)

/-- An argument buffer when the host operations between regions 2 and 3 read it. -/
theorem arg_at4 (c : Dev nD) (b : Ref sig .tc) (h0 : b ≠ main_v0) (h1 : b ≠ main_v1) (h2 : ∀ r ∈ writes2, b ≠ r)
    (h4 : b ≠ main_v27) : W4 m ρ c (Proc.devRef .tc b) = W0 m ρ c (Proc.devRef .tc b) :=
  (keep4 m ρ c b h4).trans (at3 m ρ c b h0 h1 h2)

/-- THE USER NODES' RESULT after the run: region 2's array, which nothing later writes, is `fusedG` of the user
    features, the self-loop weight, the messages `gs` of the item features' transform along the item-to-user edges, and
    the parameter vectors, all as launched. -/
theorem out_user (c : Dev nD) :
    W6 m ρ c (Proc.devRef .tc main_v27)
      = fusedG (m ((c : Thread nD τ).loc main_arg0)) (m ((c : Thread nD τ).loc main_arg6))
          (gs (matG (m ((c : Thread nD τ).loc main_arg1)) (m ((c : Thread nD τ).loc main_arg4))) (m ((c : Thread nD τ).loc main_arg18)) (m ((c : Thread nD τ).loc main_arg19)))
          (fun l => m ((c : Thread nD τ).loc main_arg5) (ix1 l)) (fun l => m ((c : Thread nD τ).loc main_arg8) (ix1 l)) (fun l => m ((c : Thread nD τ).loc main_arg9) (ix1 l))
          (m ((c : Thread nD τ).loc main_arg12)) (fun k => m ((c : Thread nD τ).loc main_arg13) (ix1 k)) (m ((c : Thread nD τ).loc main_arg14)) (fun j => m ((c : Thread nD τ).loc main_arg15) (ix1 j)) := by
  refine ((W6_of_ne m ρ c main_v27 (by decide)).trans ((keep5 m ρ c main_v27 (by decide)).trans
    ((W4_arr m ρ c 10).trans (Region2.arr (V3 m ρ) c)))).trans ?_
  have e0 : V3 m ρ c main_arg0 = m ((c : Thread nD τ).loc main_arg0) := at3 m ρ c main_arg0 (by decide) (by decide) (by decide)
  have e6 : V3 m ρ c main_arg6 = m ((c : Thread nD τ).loc main_arg6) := at3 m ρ c main_arg6 (by decide) (by decide) (by decide)
  have e12 : V3 m ρ c main_arg12 = m ((c : Thread nD τ).loc main_arg12) := at3 m ρ c main_arg12 (by decide) (by decide) (by decide)
  have e14 : V3 m ρ c main_arg14 = m ((c : Thread nD τ).loc main_arg14) := at3 m ρ c main_arg14 (by decide) (by decide) (by decide)
  have e21 : V3 m ρ c main_v21 = gs (matG (m ((c : Thread nD τ).loc main_arg1)) (m ((c : Thread nD τ).loc main_arg4))) (m ((c : Thread nD τ).loc main_arg18)) (m ((c : Thread nD τ).loc main_arg19)) := by
    refine (v21_at3 m ρ c).trans ?_
    rw [v1_at2, arg_at2 m ρ c main_arg18 (by decide) (by decide), arg_at2 m ρ c main_arg19 (by decide) (by decide)]
  have r22 : (fun l => V3 m ρ c main_v22 (ix2 (0 : Fin 1) l)) = fun l => m ((c : Thread nD τ).loc main_arg5) (ix1 l) := funext fun l =>
    (v22_at3 m ρ c l).trans (congrFun (arg_at2 m ρ c main_arg5 (by decide) (by decide)) (ix1 l))
  have r23 : (fun l => V3 m ρ c main_v23 (ix2 (0 : Fin 1) l)) = fun l => m ((c : Thread nD τ).loc main_arg8) (ix1 l) := funext fun l =>
    (v23_at3 m ρ c l).trans (congrFun (arg_at2 m ρ c main_arg8 (by decide) (by decide)) (ix1 l))
  have r24 : (fun l => V3 m ρ c main_v24 (ix2 (0 : Fin 1) l)) = fun l => m ((c : Thread nD τ).loc main_arg9) (ix1 l) := funext fun l =>
    (v24_at3 m ρ c l).trans (congrFun (arg_at2 m ρ c main_arg9 (by decide) (by decide)) (ix1 l))
  have r25 : (fun k => V3 m ρ c main_v25 (ix2 (0 : Fin 1) k)) = fun k => m ((c : Thread nD τ).loc main_arg13) (ix1 k) := funext fun k =>
    (v25_at3 m ρ c k).trans (congrFun (arg_at2 m ρ c main_arg13 (by decide) (by decide)) (ix1 k))
  have r26 : (fun j => V3 m ρ c main_v26 (ix2 (0 : Fin 1) j)) = fun j => m ((c : Thread nD τ).loc main_arg15) (ix1 j) := funext fun j =>
    (v26_at3 m ρ c j).trans (congrFun (arg_at2 m ρ c main_arg15 (by decide) (by decide)) (ix1 j))
  rw [e0, e6, e12, e14, e21, r22, r23, r24, r25, r26]

/-- THE ITEM NODES' RESULT after the run: region 3's array, likewise over the item features, the messages `gs` of the
    user features' transform along the user-to-item edges, and the item side's parameter vectors. -/
theorem out_item (c : Dev nD) :
    W6 m ρ c (Proc.devRef .tc main_v33)
      = fusedG (m ((c : Thread nD τ).loc main_arg1)) (m ((c : Thread nD τ).loc main_arg7))
          (gs (matG (m ((c : Thread nD τ).loc main_arg0)) (m ((c : Thread nD τ).loc main_arg2))) (m ((c : Thread nD τ).loc main_arg16)) (m ((c : Thread nD τ).loc main_arg17)))
          (fun l => m ((c : Thread nD τ).loc main_arg3) (ix1 l)) (fun l => m ((c : Thread nD τ).loc main_arg10) (ix1 l)) (fun l => m ((c : Thread nD τ).loc main_arg11) (ix1 l))
          (m ((c : Thread nD τ).loc main_arg12)) (fun k => m ((c : Thread nD τ).loc main_arg13) (ix1 k)) (m ((c : Thread nD τ).loc main_arg14)) (fun j => m ((c : Thread nD τ).loc main_arg15) (ix1 j)) := by
  refine ((W6_arr m ρ c 10).trans (Region3.arr (V5 m ρ) c)).trans ?_
  have e1 : V5 m ρ c main_arg1 = m ((c : Thread nD τ).loc main_arg1) := at5 m ρ c main_arg1 (by decide) (by decide) (by decide) (by decide) (by decide)
  have e7 : V5 m ρ c main_arg7 = m ((c : Thread nD τ).loc main_arg7) := at5 m ρ c main_arg7 (by decide) (by decide) (by decide) (by decide) (by decide)
  have e12 : V5 m ρ c main_arg12 = m ((c : Thread nD τ).loc main_arg12) := at5 m ρ c main_arg12 (by decide) (by decide) (by decide) (by decide) (by decide)
  have e14 : V5 m ρ c main_arg14 = m ((c : Thread nD τ).loc main_arg14) := at5 m ρ c main_arg14 (by decide) (by decide) (by decide) (by decide) (by decide)
  have e11 : V5 m ρ c main_v11 = gs (matG (m ((c : Thread nD τ).loc main_arg0)) (m ((c : Thread nD τ).loc main_arg2))) (m ((c : Thread nD τ).loc main_arg16)) (m ((c : Thread nD τ).loc main_arg17)) := by
    refine (keep5 m ρ c main_v11 (by decide)).trans ((keep4 m ρ c main_v11 (by decide)).trans ((v11_at3 m ρ c).trans ?_))
    rw [v0_at2, arg_at2 m ρ c main_arg16 (by decide) (by decide), arg_at2 m ρ c main_arg17 (by decide) (by decide)]
  have r28 : (fun l => V5 m ρ c main_v28 (ix2 (0 : Fin 1) l)) = fun l => m ((c : Thread nD τ).loc main_arg3) (ix1 l) := funext fun l =>
    (v28_at5 m ρ c l).trans (congrFun (arg_at4 m ρ c main_arg3 (by decide) (by decide) (by decide) (by decide)) (ix1 l))
  have r29 : (fun l => V5 m ρ c main_v29 (ix2 (0 : Fin 1) l)) = fun l => m ((c : Thread nD τ).loc main_arg10) (ix1 l) := funext fun l =>
    (v29_at5 m ρ c l).trans (congrFun (arg_at4 m ρ c main_arg10 (by decide) (by decide) (by decide) (by decide)) (ix1 l))
  have r30 : (fun l => V5 m ρ c main_v30 (ix2 (0 : Fin 1) l)) = fun l => m ((c : Thread nD τ).loc main_arg11) (ix1 l) := funext fun l =>
    (v30_at5 m ρ c l).trans (congrFun (arg_at4 m ρ c main_arg11 (by decide) (by decide) (by decide) (by decide)) (ix1 l))
  have r31 : (fun k => V5 m ρ c main_v31 (ix2 (0 : Fin 1) k)) = fun k => m ((c : Thread nD τ).loc main_arg13) (ix1 k) := funext fun k =>
    (v31_at5 m ρ c k).trans (congrFun (arg_at4 m ρ c main_arg13 (by decide) (by decide) (by decide) (by decide)) (ix1 k))
  have r32 : (fun j => V5 m ρ c main_v32 (ix2 (0 : Fin 1) j)) = fun j => m ((c : Thread nD τ).loc main_arg15) (ix1 j) := funext fun j =>
    (v32_at5 m ρ c j).trans (congrFun (arg_at4 m ρ c main_arg15 (by decide) (by decide) (by decide) (by decide)) (ix1 j))
  rw [e1, e7, e12, e14, e11, r28, r29, r30, r31, r32]

end Cert.KernelIdeal.HostChain

end
-- ==== Proof.RefMsg.lean ====
/-
  The plain program's transform products and messages, read to the shared specification's terms. Its two transform
  products are `Spec.matG`, entry by entry. Its messages (a gather of transformed rows along the edges' sources, then a
  sum at the edges' destinations) are the same host operations as in the tiled program, so they stay one unopened
  function `gs` of the transformed features and the two edge lists.
-/
import proofs.«116802_j78829829751101_1_alg».proof.Proof.Gen.ReferenceIdeal.Read
import proofs.«116802_j78829829751101_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefMsg

open Idealize.ShloMosaic Idealize.ShloMosaic.ValueIdx Cert.ReferenceIdeal Cert.ReferenceIdeal.Gen Cert.ReferenceIdeal.Read Cert.Spec
open Idealize.ShloMosaic.TcCoe Idealize.SL.Sem Idealize.ShloMosaic.StableHlo
open scoped BigOperators

/-- The host's product of the features with a square weight is `matG`, entry by entry. -/
theorem dot_eq_matG (x : FVec Ideal S50000x128 .f32) (w : FVec Ideal S128x128 .f32) :
    Host.dotGeneral (F := Ideal) dot_S50000x128_S128x128_S50000x128_1_0_0_1_n_n none x w = matG x w := by
  funext i
  have h := val_main_v0_apply x w i
  unfold val_main_v0 at h
  rw [h]
  unfold matG
  refine Finset.sum_congr rfl fun q _ => ?_
  have el : lidx_main_v0 i q = ix2 (i 0) q := funext fun a => Fin.ext (by match a with | ⟨0, _⟩ => rfl | ⟨1, _⟩ => rfl)
  have er : ridx_main_v0 i q = ix2 q (i 1) := funext fun a => Fin.ext (by match a with | ⟨0, _⟩ => rfl | ⟨1, _⟩ => rfl)
  rw [el, er]
  rfl

/-- The messages: rows of `t` gathered at the edges' sources `s` (a negative index wrapped once by the row count) and added up at the edges' destinations `d`, from zero. Never opened: both programs apply it. -/
def gs (t : FVec Ideal S50000x128 .f32) (s d : IVec S600000 32) : FVec Ideal S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 t
      (broadcastInDim S600000x1 ![0] bcast_S600000_S600000x1_0
        (select (cmpi .slt s (broadcastInDim S600000 ![] bcast_S_S600000 (constantI S_ 32 0#32)))
          (addi s (broadcastInDim S600000 ![] bcast_S_S600000 (constantI S_ 32 50000#32))) s)))

/-- The user nodes' messages in the plain program are `gs` of the item features' transform. -/
theorem msg_user_eq (x1 : (⟨S50000x128, .f32⟩ : BufTy).Contents (Elt Ideal)) (x4 : (⟨S128x128, .f32⟩ : BufTy).Contents (Elt Ideal)) (x18 x19 : (⟨S600000, .i32⟩ : BufTy).Contents (Elt Ideal)) :
    val_main_v24 (F := Ideal) x1 x4 x18 x19 = gs (matG x1 x4) x18 x19 := by
  rw [← dot_eq_matG x1 x4]
  rfl

/-- The item nodes' messages in the plain program are `gs` of the user features' transform. -/
theorem msg_item_eq (x0 : (⟨S50000x128, .f32⟩ : BufTy).Contents (Elt Ideal)) (x2 : (⟨S128x128, .f32⟩ : BufTy).Contents (Elt Ideal)) (x16 x17 : (⟨S600000, .i32⟩ : BufTy).Contents (Elt Ideal)) :
    val_main_v10 (F := Ideal) x0 x2 x16 x17 = gs (matG x0 x2) x16 x17 := by
  rw [← dot_eq_matG x0 x2]
  rfl

end Cert.ReferenceIdeal.RefMsg

end
-- ==== Proof.RefSide.lean ====
/-
  The plain program's two results read to the shared specification, row by row. Each result is, at row `r` and column
  `j`, `Spec.rowTail` of the row "features through the self-loop weight, plus (summed messages plus bias)" — the bias
  joined to the messages first, which addition's associativity regroups to `Spec.preRow`'s "(product plus messages)
  plus bias" — and of the node's own feature row, which re-enters as the residual. The messages stay the unopened array
  the plain program computes for them; nothing here depends on how they are formed. The mean and the variance are
  columns with one entry per row; the scale, the shift and the three biases are rows repeated down the columns.
-/
import proofs.«116802_j78829829751101_1_alg».proof.Proof.Gen.ReferenceIdeal.Read
import proofs.«116802_j78829829751101_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefSide

open Idealize.ShloMosaic Idealize.ShloMosaic.ValueIdx Cert.ReferenceIdeal Cert.ReferenceIdeal.Gen Cert.ReferenceIdeal.Read Cert.Spec
open Idealize.ShloMosaic.TcCoe Idealize.SL.Sem Idealize.ShloMosaic.StableHlo
open scoped BigOperators

/-! ## The user nodes' result, stage by stage

Every stage of the plain program is read at a row `r` and a column; an index of a column array (one entry per row) is
`ix2 r z` with `z : Fin 1`. The index equations only say that the plain program's index functions, composed, send
`(r, l)` to the coordinates named on the right. -/

section User

variable (x0 x1 : (⟨S50000x128, .f32⟩ : BufTy).Contents (Elt Ideal)) (x4 : (⟨S128x128, .f32⟩ : BufTy).Contents (Elt Ideal)) (x5 : (⟨S128, .f32⟩ : BufTy).Contents (Elt Ideal))
  (x6 : (⟨S128x128, .f32⟩ : BufTy).Contents (Elt Ideal)) (x8 x9 : (⟨S128, .f32⟩ : BufTy).Contents (Elt Ideal)) (x12 : (⟨S128x256, .f32⟩ : BufTy).Contents (Elt Ideal))
  (x13 : (⟨S256, .f32⟩ : BufTy).Contents (Elt Ideal)) (x14 : (⟨S256x128, .f32⟩ : BufTy).Contents (Elt Ideal)) (x15 : (⟨S128, .f32⟩ : BufTy).Contents (Elt Ideal))
  (x18 x19 : (⟨S600000, .i32⟩ : BufTy).Contents (Elt Ideal))

/-- The row before normalisation: the product with the self-loop weight plus (messages plus bias), regrouped by the
    associativity of addition to `preRow`. The messages stay the unopened array. -/
theorem user_pre (r : Fin 50000) (l : Fin 128) :
    val_main_v29 (F := Ideal) x0 x1 x4 x5 x6 x18 x19 (ix2 r l)
      = preRow x0 x6 (val_main_v24 (F := Ideal) x1 x4 x18 x19) (fun l => x5 (ix1 l)) r l := by
  have e1 : ∀ k : Fin 128, lidx_main_v28 (ix2 r l) k = ix2 r k := fun k => funext fun a => Fin.ext (by match a with | ⟨0, _⟩ => rfl | ⟨1, _⟩ => rfl)
  have e2 : ∀ k : Fin 128, ridx_main_v28 (ix2 r l) k = ix2 k l := fun k => funext fun a => Fin.ext (by match a with | ⟨0, _⟩ => rfl | ⟨1, _⟩ => rfl)
  have e3 : idx_main_v25 (idx_main_v26 (ix2 r l)) = ix1 l := funext fun a => Fin.ext (by match a with | ⟨0, _⟩ => rfl)
  rw [val_main_v29_apply, val_main_v28_apply, val_main_v27_apply, val_main_v26_apply, val_main_v25_apply]
  simp only [e1, e2, e3, Ideal.addf_def]
  exact preRow_assoc x0 x6 (val_main_v24 (F := Ideal) x1 x4 x18 x19) (fun l => x5 (ix1 l)) r l

/-- The mean column at row `r` is the mean of that row: the sum starts from the zero word, which is `0`. -/
theorem user_mean (r : Fin 50000) (z : Fin 1) :
    val_main_v35 (F := Ideal) x0 x1 x4 x5 x6 x18 x19 (ix2 r z)
      = rowMean (fun l => val_main_v29 (F := Ideal) x0 x1 x4 x5 x6 x18 x19 (ix2 r l)) := by
  have e1 : ∀ k : Fin 128, idx_main_v32 (idx_main_v33 (ix2 r z)) k = ix2 r k := fun k => funext fun a => Fin.ext (by match a with | ⟨0, _⟩ => rfl | ⟨1, _⟩ => rfl)
  rw [val_main_v35_apply, val_main_v33_apply, val_main_v32_apply, val_main_v34_apply, val_main_cst_5_apply,
    val_main_cst_4_apply]
  simp only [e1, Ideal.hostDivf_def, Ideal.ofBits_def, Ideal.ofBits_zero_f32, zero_add]
  rfl

/-- The variance column at row `r` is the variance of that row about the mean above. -/
theorem user_var (r : Fin 50000) (z : Fin 1) :
    val_main_v42 (F := Ideal) x0 x1 x4 x5 x6 x18 x19 (ix2 r z)
      = rowVar (fun l => val_main_v29 (F := Ideal) x0 x1 x4 x5 x6 x18 x19 (ix2 r l)) := by
  have e1 : ∀ k : Fin 128, idx_main_v39 (idx_main_v40 (ix2 r z)) k = ix2 r k := fun k => funext fun a => Fin.ext (by match a with | ⟨0, _⟩ => rfl | ⟨1, _⟩ => rfl)
  have e2 : ∀ k : Fin 128, idx_main_v36 (ix2 r k) = ix2 r (0 : Fin 1) := fun k => funext fun a => Fin.ext (by match a with | ⟨0, _⟩ => rfl | ⟨1, _⟩ => rfl)
  rw [val_main_v42_apply, val_main_v40_apply, val_main_v39_apply, val_main_v41_apply, val_main_cst_7_apply,
    val_main_cst_6_apply]
  simp only [e1, val_main_v38_apply, val_main_v37_apply, val_main_v36_apply, e2, user_mean, Ideal.hostDivf_def,
    Ideal.mulf_def, Ideal.subf_def, Ideal.ofBits_def, Ideal.ofBits_zero_f32, zero_add]
  rfl

/-- The normalised, scaled, shifted, rectified row plus the residual is `rowRes` of the row above and the features. -/
theorem user_res (r : Fin 50000) (l : Fin 128) :
    val_main_v57 (F := Ideal) x0 x1 x4 x5 x6 x8 x9 x18 x19 (ix2 r l)
      = rowRes (fun l => val_main_v29 (F := Ideal) x0 x1 x4 x5 x6 x18 x19 (ix2 r l)) (fun l => x0 (ix2 r l))
          (fun l => x8 (ix1 l)) (fun l => x9 (ix1 l)) l := by
  have e1 : idx_main_v43 (ix2 r l) = ix2 r (0 : Fin 1) := funext fun a => Fin.ext (by match a with | ⟨0, _⟩ => rfl | ⟨1, _⟩ => rfl)
  have e2 : idx_main_v48 (ix2 r l) = ix2 r (0 : Fin 1) := funext fun a => Fin.ext (by match a with | ⟨0, _⟩ => rfl | ⟨1, _⟩ => rfl)
  have e3 : idx_main_v50 (idx_main_v51 (ix2 r l)) = ix1 l := funext fun a => Fin.ext (by match a with | ⟨0, _⟩ => rfl)
  have e4 : idx_main_v53 (idx_main_v54 (ix2 r l)) = ix1 l := funext fun a => Fin.ext (by match a with | ⟨0, _⟩ => rfl)
  simp only [val_main_v57_apply, val_main_v56_apply, val_main_v55_apply, val_main_v52_apply, val_main_v49_apply,
    val_main_v44_apply, val_main_v43_apply, val_main_v48_apply, val_main_v47_apply, val_main_v46_apply,
    val_main_v45_apply, val_main_cst_8_apply, val_main_v51_apply, val_main_v50_apply, val_main_v54_apply,
    val_main_v53_apply, val_main_call0_v0_apply, val_main_call0_cst_apply, e1, e2, e3, e4, user_mean, user_var,
    Ideal.addf_def, Ideal.mulf_def, Ideal.subf_def, Ideal.maximumf_def, Ideal.hostUnary_rsqrt_def, Ideal.ofBits_def]
  rfl

/-- The hidden layer at `(r, k)`: the product with the first weight as a sum over the row, plus its bias, rectified. -/
theorem user_hid (r : Fin 50000) (k : Fin 256) :
    val_main_v88 (F := Ideal) x0 x1 x4 x5 x6 x8 x9 x12 x13 x18 x19 (ix2 r k)
      = rowHid (fun l => val_main_v57 (F := Ideal) x0 x1 x4 x5 x6 x8 x9 x18 x19 (ix2 r l)) (fun l k => x12 (ix2 l k))
          (fun k => x13 (ix1 k)) k := by
  have e1 : ∀ l : Fin 128, lidx_main_v84 (ix2 r k) l = ix2 r l := fun l => funext fun a => Fin.ext (by match a with | ⟨0, _⟩ => rfl | ⟨1, _⟩ => rfl)
  have e2 : ∀ l : Fin 128, ridx_main_v84 (ix2 r k) l = ix2 l k := fun l => funext fun a => Fin.ext (by match a with | ⟨0, _⟩ => rfl | ⟨1, _⟩ => rfl)
  have e3 : idx_main_v85 (idx_main_v86 (ix2 r k)) = ix1 k := funext fun a => Fin.ext (by match a with | ⟨0, _⟩ => rfl)
  rw [val_main_v88_apply, val_main_v87_apply, val_main_v84_apply, val_main_v86_apply, val_main_v85_apply,
    val_main_call2_v0_apply, val_main_call2_cst_apply]
  simp only [e1, e2, e3, Ideal.addf_def, Ideal.maximumf_def, Ideal.ofBits_def]
  rfl

/-- The output layer at `(r, j)`: the product with the second weight as a sum over the hidden row, plus its bias. -/
theorem user_out (r : Fin 50000) (j : Fin 128) :
    val_main_v92 (F := Ideal) x0 x1 x4 x5 x6 x8 x9 x12 x13 x14 x15 x18 x19 (ix2 r j)
      = rowOut (fun k => val_main_v88 (F := Ideal) x0 x1 x4 x5 x6 x8 x9 x12 x13 x18 x19 (ix2 r k)) (fun k j => x14 (ix2 k j))
          (fun j => x15 (ix1 j)) j := by
  have e1 : ∀ k : Fin 256, lidx_main_v89 (ix2 r j) k = ix2 r k := fun k => funext fun a => Fin.ext (by match a with | ⟨0, _⟩ => rfl | ⟨1, _⟩ => rfl)
  have e2 : ∀ k : Fin 256, ridx_main_v89 (ix2 r j) k = ix2 k j := fun k => funext fun a => Fin.ext (by match a with | ⟨0, _⟩ => rfl | ⟨1, _⟩ => rfl)
  have e3 : idx_main_v90 (idx_main_v91 (ix2 r j)) = ix1 j := funext fun a => Fin.ext (by match a with | ⟨0, _⟩ => rfl)
  rw [val_main_v92_apply, val_main_v89_apply, val_main_v91_apply, val_main_v90_apply]
  simp only [e1, e2, e3, Ideal.addf_def]
  rfl

end User

/-- The plain program's first result (the user nodes) is `fusedG` of its arguments and the user messages. -/
theorem out0_eq (x0 x1 : (⟨S50000x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x8 x9 : (⟨S128, .f32⟩ : BufTy).Contents (Elt Ideal)) (x12 : (⟨S128x256, .f32⟩ : BufTy).Contents (Elt Ideal))
    (x13 : (⟨S256, .f32⟩ : BufTy).Contents (Elt Ideal)) (x14 : (⟨S256x128, .f32⟩ : BufTy).Contents (Elt Ideal)) (x15 : (⟨S128, .f32⟩ : BufTy).Contents (Elt Ideal))
    (x18 x19 : (⟨S600000, .i32⟩ : BufTy).Contents (Elt Ideal)) :
    val_main_v92 (F := Ideal) x0 x1 x4 x5 x6 x8 x9 x12 x13 x14 x15 x18 x19
      = fusedG x0 x6 (val_main_v24 (F := Ideal) x1 x4 x18 x19) (fun l => x5 (ix1 l)) (fun l => x8 (ix1 l))
          (fun l => x9 (ix1 l)) x12 (fun k => x13 (ix1 k)) x14 (fun j => x15 (ix1 j)) := by
  funext i
  obtain ⟨r, j, rfl⟩ : ∃ (r : Fin 50000) (j : Fin 128), i = ix2 r j := ⟨i 0, i 1, eq_ix2 i⟩
  rw [user_out]
  simp only [user_hid, user_res, user_pre]
  rfl

/-! ## The item nodes' result, stage by stage

The same reading for the second result: the item features take the place of the user features, and the user features'
transform feeds the messages. -/

section Item

variable (x0 x1 : (⟨S50000x128, .f32⟩ : BufTy).Contents (Elt Ideal)) (x2 : (⟨S128x128, .f32⟩ : BufTy).Contents (Elt Ideal)) (x3 : (⟨S128, .f32⟩ : BufTy).Contents (Elt Ideal))
  (x7 : (⟨S128x128, .f32⟩ : BufTy).Contents (Elt Ideal)) (x10 x11 : (⟨S128, .f32⟩ : BufTy).Contents (Elt Ideal)) (x12 : (⟨S128x256, .f32⟩ : BufTy).Contents (Elt Ideal))
  (x13 : (⟨S256, .f32⟩ : BufTy).Contents (Elt Ideal)) (x14 : (⟨S256x128, .f32⟩ : BufTy).Contents (Elt Ideal)) (x15 : (⟨S128, .f32⟩ : BufTy).Contents (Elt Ideal))
  (x16 x17 : (⟨S600000, .i32⟩ : BufTy).Contents (Elt Ideal))

/-- The row before normalisation: the product with the self-loop weight plus (messages plus bias), regrouped by the
    associativity of addition to `preRow`. The messages stay the unopened array. -/
theorem item_pre (r : Fin 50000) (l : Fin 128) :
    val_main_v31 (F := Ideal) x0 x1 x2 x3 x7 x16 x17 (ix2 r l)
      = preRow x1 x7 (val_main_v10 (F := Ideal) x0 x2 x16 x17) (fun l => x3 (ix1 l)) r l := by
  have e1 : ∀ k : Fin 128, lidx_main_v30 (ix2 r l) k = ix2 r k := fun k => funext fun a => Fin.ext (by match a with | ⟨0, _⟩ => rfl | ⟨1, _⟩ => rfl)
  have e2 : ∀ k : Fin 128, ridx_main_v30 (ix2 r l) k = ix2 k l := fun k => funext fun a => Fin.ext (by match a with | ⟨0, _⟩ => rfl | ⟨1, _⟩ => rfl)
  have e3 : idx_main_v11 (idx_main_v12 (ix2 r l)) = ix1 l := funext fun a => Fin.ext (by match a with | ⟨0, _⟩ => rfl)
  rw [val_main_v31_apply, val_main_v30_apply, val_main_v13_apply, val_main_v12_apply, val_main_v11_apply]
  simp only [e1, e2, e3, Ideal.addf_def]
  exact preRow_assoc x1 x7 (val_main_v10 (F := Ideal) x0 x2 x16 x17) (fun l => x3 (ix1 l)) r l

/-- The mean column at row `r` is the mean of that row: the sum starts from the zero word, which is `0`. -/
theorem item_mean (r : Fin 50000) (z : Fin 1) :
    val_main_v61 (F := Ideal) x0 x1 x2 x3 x7 x16 x17 (ix2 r z)
      = rowMean (fun l => val_main_v31 (F := Ideal) x0 x1 x2 x3 x7 x16 x17 (ix2 r l)) := by
  have e1 : ∀ k : Fin 128, idx_main_v58 (idx_main_v59 (ix2 r z)) k = ix2 r k := fun k => funext fun a => Fin.ext (by match a with | ⟨0, _⟩ => rfl | ⟨1, _⟩ => rfl)
  rw [val_main_v61_apply, val_main_v59_apply, val_main_v58_apply, val_main_v60_apply, val_main_cst_10_apply,
    val_main_cst_9_apply]
  simp only [e1, Ideal.hostDivf_def, Ideal.ofBits_def, Ideal.ofBits_zero_f32, zero_add]
  rfl

/-- The variance column at row `r` is the variance of that row about the mean above. -/
theorem item_var (r : Fin 50000) (z : Fin 1) :
    val_main_v68 (F := Ideal) x0 x1 x2 x3 x7 x16 x17 (ix2 r z)
      = rowVar (fun l => val_main_v31 (F := Ideal) x0 x1 x2 x3 x7 x16 x17 (ix2 r l)) := by
  have e1 : ∀ k : Fin 128, idx_main_v65 (idx_main_v66 (ix2 r z)) k = ix2 r k := fun k => funext fun a => Fin.ext (by match a with | ⟨0, _⟩ => rfl | ⟨1, _⟩ => rfl)
  have e2 : ∀ k : Fin 128, idx_main_v62 (ix2 r k) = ix2 r (0 : Fin 1) := fun k => funext fun a => Fin.ext (by match a with | ⟨0, _⟩ => rfl | ⟨1, _⟩ => rfl)
  rw [val_main_v68_apply, val_main_v66_apply, val_main_v65_apply, val_main_v67_apply, val_main_cst_12_apply,
    val_main_cst_11_apply]
  simp only [e1, val_main_v64_apply, val_main_v63_apply, val_main_v62_apply, e2, item_mean, Ideal.hostDivf_def,
    Ideal.mulf_def, Ideal.subf_def, Ideal.ofBits_def, Ideal.ofBits_zero_f32, zero_add]
  rfl

/-- The normalised, scaled, shifted, rectified row plus the residual is `rowRes` of the row above and the features. -/
theorem item_res (r : Fin 50000) (l : Fin 128) :
    val_main_v83 (F := Ideal) x0 x1 x2 x3 x7 x10 x11 x16 x17 (ix2 r l)
      = rowRes (fun l => val_main_v31 (F := Ideal) x0 x1 x2 x3 x7 x16 x17 (ix2 r l)) (fun l => x1 (ix2 r l))
          (fun l => x10 (ix1 l)) (fun l => x11 (ix1 l)) l := by
  have e1 : idx_main_v69 (ix2 r l) = ix2 r (0 : Fin 1) := funext fun a => Fin.ext (by match a with | ⟨0, _⟩ => rfl | ⟨1, _⟩ => rfl)
  have e2 : idx_main_v74 (ix2 r l) = ix2 r (0 : Fin 1) := funext fun a => Fin.ext (by match a with | ⟨0, _⟩ => rfl | ⟨1, _⟩ => rfl)
  have e3 : idx_main_v76 (idx_main_v77 (ix2 r l)) = ix1 l := funext fun a => Fin.ext (by match a with | ⟨0, _⟩ => rfl)
  have e4 : idx_main_v79 (idx_main_v80 (ix2 r l)) = ix1 l := funext fun a => Fin.ext (by match a with | ⟨0, _⟩ => rfl)
  simp only [val_main_v83_apply, val_main_v82_apply, val_main_v81_apply, val_main_v78_apply, val_main_v75_apply,
    val_main_v70_apply, val_main_v69_apply, val_main_v74_apply, val_main_v73_apply, val_main_v72_apply,
    val_main_v71_apply, val_main_cst_13_apply, val_main_v77_apply, val_main_v76_apply, val_main_v80_apply,
    val_main_v79_apply, val_main_call1_v0_apply, val_main_call1_cst_apply, e1, e2, e3, e4, item_mean, item_var,
    Ideal.addf_def, Ideal.mulf_def, Ideal.subf_def, Ideal.maximumf_def, Ideal.hostUnary_rsqrt_def, Ideal.ofBits_def]
  rfl

/-- The hidden layer at `(r, k)`: the product with the first weight as a sum over the row, plus its bias, rectified. -/
theorem item_hid (r : Fin 50000) (k : Fin 256) :
    val_main_v97 (F := Ideal) x0 x1 x2 x3 x7 x10 x11 x12 x13 x16 x17 (ix2 r k)
      = rowHid (fun l => val_main_v83 (F := Ideal) x0 x1 x2 x3 x7 x10 x11 x16 x17 (ix2 r l)) (fun l k => x12 (ix2 l k))
          (fun k => x13 (ix1 k)) k := by
  have e1 : ∀ l : Fin 128, lidx_main_v93 (ix2 r k) l = ix2 r l := fun l => funext fun a => Fin.ext (by match a with | ⟨0, _⟩ => rfl | ⟨1, _⟩ => rfl)
  have e2 : ∀ l : Fin 128, ridx_main_v93 (ix2 r k) l = ix2 l k := fun l => funext fun a => Fin.ext (by match a with | ⟨0, _⟩ => rfl | ⟨1, _⟩ => rfl)
  have e3 : idx_main_v94 (idx_main_v95 (ix2 r k)) = ix1 k := funext fun a => Fin.ext (by match a with | ⟨0, _⟩ => rfl)
  rw [val_main_v97_apply, val_main_v96_apply, val_main_v93_apply, val_main_v95_apply, val_main_v94_apply,
    val_main_call3_v0_apply, val_main_call3_cst_apply]
  simp only [e1, e2, e3, Ideal.addf_def, Ideal.maximumf_def, Ideal.ofBits_def]
  rfl

/-- The output layer at `(r, j)`: the product with the second weight as a sum over the hidden row, plus its bias. -/
theorem item_out (r : Fin 50000) (j : Fin 128) :
    val_main_v101 (F := Ideal) x0 x1 x2 x3 x7 x10 x11 x12 x13 x14 x15 x16 x17 (ix2 r j)
      = rowOut (fun k => val_main_v97 (F := Ideal) x0 x1 x2 x3 x7 x10 x11 x12 x13 x16 x17 (ix2 r k)) (fun k j => x14 (ix2 k j))
          (fun j => x15 (ix1 j)) j := by
  have e1 : ∀ k : Fin 256, lidx_main_v98 (ix2 r j) k = ix2 r k := fun k => funext fun a => Fin.ext (by match a with | ⟨0, _⟩ => rfl | ⟨1, _⟩ => rfl)
  have e2 : ∀ k : Fin 256, ridx_main_v98 (ix2 r j) k = ix2 k j := fun k => funext fun a => Fin.ext (by match a with | ⟨0, _⟩ => rfl | ⟨1, _⟩ => rfl)
  have e3 : idx_main_v99 (idx_main_v100 (ix2 r j)) = ix1 j := funext fun a => Fin.ext (by match a with | ⟨0, _⟩ => rfl)
  rw [val_main_v101_apply, val_main_v98_apply, val_main_v100_apply, val_main_v99_apply]
  simp only [e1, e2, e3, Ideal.addf_def]
  rfl

end Item

/-- The plain program's second result (the item nodes) is `fusedG` of its arguments and the item messages. -/
theorem out1_eq (x0 x1 : (⟨S50000x128, .f32⟩ : BufTy).Contents (Elt Ideal)) (x2 : (⟨S128x128, .f32⟩ : BufTy).Contents (Elt Ideal)) (x3 : (⟨S128, .f32⟩ : BufTy).Contents (Elt Ideal))
    (x7 : (⟨S128x128, .f32⟩ : BufTy).Contents (Elt Ideal)) (x10 x11 : (⟨S128, .f32⟩ : BufTy).Contents (Elt Ideal)) (x12 : (⟨S128x256, .f32⟩ : BufTy).Contents (Elt Ideal))
    (x13 : (⟨S256, .f32⟩ : BufTy).Contents (Elt Ideal)) (x14 : (⟨S256x128, .f32⟩ : BufTy).Contents (Elt Ideal)) (x15 : (⟨S128, .f32⟩ : BufTy).Contents (Elt Ideal))
    (x16 x17 : (⟨S600000, .i32⟩ : BufTy).Contents (Elt Ideal)) :
    val_main_v101 (F := Ideal) x0 x1 x2 x3 x7 x10 x11 x12 x13 x14 x15 x16 x17
      = fusedG x1 x7 (val_main_v10 (F := Ideal) x0 x2 x16 x17) (fun l => x3 (ix1 l)) (fun l => x10 (ix1 l))
          (fun l => x11 (ix1 l)) x12 (fun k => x13 (ix1 k)) x14 (fun j => x15 (ix1 j)) := by
  funext i
  obtain ⟨r, j, rfl⟩ : ∃ (r : Fin 50000) (j : Fin 128), i = ix2 r j := ⟨i 0, i 1, eq_ix2 i⟩
  rw [item_out]
  simp only [item_hid, item_res, item_pre]
  rfl

end Cert.ReferenceIdeal.RefSide

end
-- ==== Proof.lean ====
/-
  One layer of a relational graph network on two node types, tiled against plain. Each node's new features are
  a feed-forward net of  relu (layernorm (x · S + Σ_{edges into the node} (x' · W)_source + bias)) + x ,  where x is the
  node's row, x' the other node type's features, S the self-loop weight and W the relation's weight. The tiled program
  computes the two transforms x' · W and the two fused tails in row blocks of 5000, and the gathers and sums along the
  edges on the host; the plain program computes everything on the host. On the extended reals the two agree entry by
  entry: a row's output depends on that row alone, so the tiling is invisible; the gather and the sums along the edges
  are the same operations applied to equal transforms; and the only regrouping is  (a + m) + b  against  a + (m + b) ,
  which addition's associativity settles, with no finiteness needed. The frames of the two tiled programs are the
  generated ones; the plain program's frame is its generated run with the results dropped; the idealization rewrote
  nothing.
-/
import proofs.«116802_j78829829751101_1_alg».proof.Defs
import proofs.«116802_j78829829751101_1_alg».proof.Proof.Gen.Kernel
import proofs.«116802_j78829829751101_1_alg».proof.Proof.Gen.Kernel.Skeleton
import proofs.«116802_j78829829751101_1_alg».proof.Proof.Gen.Kernel.Launch
import proofs.«116802_j78829829751101_1_alg».proof.Proof.Gen.Kernel.Points
import proofs.«116802_j78829829751101_1_alg».proof.Proof.Gen.Kernel.Frame
import proofs.«116802_j78829829751101_1_alg».proof.Proof.Gen.KernelIdeal
import proofs.«116802_j78829829751101_1_alg».proof.Proof.Gen.KernelIdeal.Skeleton
import proofs.«116802_j78829829751101_1_alg».proof.Proof.Gen.KernelIdeal.Launch
import proofs.«116802_j78829829751101_1_alg».proof.Proof.Gen.KernelIdeal.Points
import proofs.«116802_j78829829751101_1_alg».proof.Proof.Gen.KernelIdeal.Frame
import proofs.«116802_j78829829751101_1_alg».proof.Proof.Gen.ReferenceIdeal
import proofs.«116802_j78829829751101_1_alg».proof.Proof.Gen.ReferenceIdeal.Run
import proofs.«116802_j78829829751101_1_alg».proof.Proof.Gen.ReferenceIdeal.Read
import proofs.«116802_j78829829751101_1_alg».proof.Proof.Gen.Pre_finite_inputs
import proofs.«116802_j78829829751101_1_alg».proof.Proof.KernelRun
import proofs.«116802_j78829829751101_1_alg».proof.Proof.HostChain
import proofs.«116802_j78829829751101_1_alg».proof.Proof.RefMsg
import proofs.«116802_j78829829751101_1_alg».proof.Proof.RefSide
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The plain program's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the twenty arguments both programs end with the same two arrays: each is
    `Spec.fusedG` of the node features, the self-loop weight, the messages along the incoming edges and the parameter
    vectors — the tiled program's by its regions' whole-array values carried through its host operations, the plain
    program's by its run read row by row —, and the two message arrays are the same host operations applied to the same
    transform `Spec.matG`. -/
theorem algebraic : Cert.algebraic_KernelIdeal_ReferenceIdeal := by
  intro m ρ m' ρ' _ hagree
  refine ⟨fun c => Cert.KernelIdeal.Gen.W6 m ρ c (Proc.devRef .tc Cert.KernelIdeal.main_v27),
    fun c => Cert.KernelIdeal.Gen.W6 m ρ c (Proc.devRef .tc Cert.KernelIdeal.main_v33),
    Cert.KernelIdeal.RunValues.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18, a19⟩ := hagree c
    rw [Cert.ReferenceIdeal.Read.val_main_v92_eq, Cert.ReferenceIdeal.RefSide.out0_eq,
      Cert.ReferenceIdeal.RefMsg.msg_user_eq, a0, a1, a4, a5, a6, a8, a9, a12, a13, a14, a15, a18, a19]
    exact (Cert.KernelIdeal.HostChain.out_user m ρ c).symm
  · obtain ⟨a0, a1, a2, a3, a4, a5, a6, a7, a8, a9, a10, a11, a12, a13, a14, a15, a16, a17, a18, a19⟩ := hagree c
    rw [Cert.ReferenceIdeal.Read.val_main_v101_eq, Cert.ReferenceIdeal.RefSide.out1_eq,
      Cert.ReferenceIdeal.RefMsg.msg_item_eq, a0, a1, a2, a3, a7, a10, a11, a12, a13, a14, a15, a16, a17]
    exact (Cert.KernelIdeal.HostChain.out_item m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
